-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.truncf_extf.Statement Cert.KernelIdeal.S1024x1024 .f32 .bf16
  ∧ IdealRules.truncf_extf.Statement Cert.KernelIdeal.S256x1024 .f32 .bf16
  ∧ IdealRules.truncf_extf.Statement Cert.KernelIdeal.S256x1024 .f32 .bf16
  ∧ IdealRules.named_const.Statement Cert.KernelIdeal.κ "neg_big" .f32 0xFF333332#32 ⊥
  ∧ IdealRules.truncf_extf.Statement Cert.KernelIdeal.S256x1024 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x512x1024 : Shape := ⟨3, ![16, 512, 1024]⟩
abbrev S16x1024x1024 : Shape := ⟨3, ![16, 1024, 1024]⟩
abbrev S16 : Shape := ⟨1, ![16]⟩
abbrev S1024x1024 : Shape := ⟨2, ![1024, 1024]⟩
abbrev S1024x2048 : Shape := ⟨2, ![1024, 2048]⟩
abbrev S_ : Shape := ⟨0, ![]⟩

class Facts : Prop where
  bcast_S_S16x512x1024 : S_.BroadcastsInDim S16x512x1024 (![] : Fin 0 → Fin S16x512x1024.rank)
  reducesTo_S16x512x1024_S_d0_1_2 : S16x512x1024.ReducesTo [0, 1, 2] S_
  h_S_ : 0 < S_.numel
  bcast_S_S16x1024x1024 : S_.BroadcastsInDim S16x1024x1024 (![] : Fin 0 → Fin S16x1024x1024.rank)
  reducesTo_S16x1024x1024_S_d0_1_2 : S16x1024x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg2 : IVec S16 32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_c_6 : IVec S_ 32 := constantI S_ 32 1#32
  let main_v19 : IVec S16 32 := broadcastInDim S16 ![] bcast_S_S16 main_c_6
  let main_v20 : IVec S16 1 := cmpi .sge main_arg2 main_v19
  let main_c_7 : IVec S_ 1 := constantI S_ 1 1#1
  let main_v21 : IVec S_ 1 := (fun x v => Host.reduce IntOp.andi x v reducesTo_S16_S_d0 h_S_) main_v20 main_c_7
  let main_v22 : IVec S_ 1 := andi main_v18 main_v21
  main_v22

def fn {F : FTy → Type} [FloatOps F] (main_arg0 : FVec F S16x512x1024 .f32) (main_arg1 : FVec F S16x1024x1024 .f32) (main_arg2 : IVec S16 32) (main_arg3 : FVec F S1024x1024 .f32) (main_arg4 : FVec F S1024x2048 .f32) : IVec S_ 1 :=
  let main_v0 : FVec F S16x512x1024 .f32 := Host.absf main_arg0
  let main_cst : FVec F S_ .f32 := constant S_ .f32 0x7F800000#32
  let main_v1 : FVec F S16x512x1024 .f32 := broadcastInDim S16x512x1024 ![] bcast_S_S16x512x1024 main_cst
  let main_v2 : IVec S16x512x1024 1 := cmpf .olt main_v0 main_v1
  let main_c : IVec S_ 1 := constantI S_ 1 1#1
  let main_v3 : IVec S_ 1 := (fun x v => Host.reduce IntOp.andi x v reducesTo_S16x512x1024_S_d0_1_2 h_S_) main_v2 main_c
  let main_v4 : FVec F S16x1024x1024 .f32 := Host.absf main_arg1
  let main_cst_0 : FVec F S_ .f32 := constant S_ .f32 0x7F800000#32
  let main_v5 : FVec F S16x1024x1024 .f32 := broadcastInDim S16x1024x1024 ![] bcast_S_S16x1024x1024 main_cst_0
  let main_v6 : IVec S16x1024x1024 1 := cmpf .olt main_v4 main_v5
  let main_c_1 : IVec S_ 1 := constantI S_ 1 1#1
  let main_v7 : IVec S_ 1 := (fun x v => Host.reduce IntOp.andi x v reducesTo_S16x1024x1024_S_d0_1_2 h_S_) main_v6 main_c_1
  let main_v8 : IVec S_ 1 := andi main_v3 main_v7
  let main_v9 : FVec F S1024x1024 .f32 := Host.absf main_arg3
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg4
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg2 main_v13 main_v16
-- ==== Kernel.lean ====
abbrev S16x512x1024 : Shape := ⟨3, ![16, 512, 1024]⟩
abbrev S16x1024x1024 : Shape := ⟨3, ![16, 1024, 1024]⟩
abbrev S16 : Shape := ⟨1, ![16]⟩
abbrev S1024x1024 : Shape := ⟨2, ![1024, 1024]⟩
abbrev S1024x2048 : Shape := ⟨2, ![1024, 2048]⟩
abbrev S1x256x1024 : Shape := ⟨3, ![1, 256, 1024]⟩
abbrev S1x1024x1024 : Shape := ⟨3, ![1, 1024, 1024]⟩
abbrev S1 : Shape := ⟨1, ![1]⟩
abbrev S256x1024 : Shape := ⟨2, ![256, 1024]⟩
abbrev S256 : Shape := ⟨1, ![256]⟩
abbrev S256x1 : Shape := ⟨2, ![256, 1]⟩
abbrev S512x16x1024 : Shape := ⟨3, ![512, 16, 1024]⟩

abbrev nBuf : Space → Nat
  | .hbm => 16
  | .vmem => 14
  | .smem => 1
  | _ => 0

abbrev bufTy : (tb : Table) → Fin (tcTables nBuf tb) → BufTy
  | .hbm, ⟨0, _⟩ => ⟨S16x512x1024, .f32⟩
  | .hbm, ⟨1, _⟩ => ⟨S16x1024x1024, .f32⟩
  | .hbm, ⟨2, _⟩ => ⟨S1024x1024, .f32⟩
  | .hbm, ⟨3, _⟩ => ⟨S1024x2048, .f32⟩
  | .hbm, ⟨4, _⟩ => ⟨S1024x1024, .bf16⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S1024x1024, .f32⟩
  | .hbm, ⟨9, _⟩ => ⟨S1024x1024, .bf16⟩
  | .hbm, ⟨10, _⟩ => ⟨S1024x1024, .f32⟩
  | .hbm, ⟨11, _⟩ => ⟨S1024x1024, .bf16⟩
  | .hbm, ⟨12, _⟩ => ⟨S16x512x1024, .f32⟩
  | .hbm, ⟨13, _⟩ => ⟨S16x512x1024, .f32⟩
  | .hbm, ⟨14, _⟩ => ⟨S512x16x1024, .f32⟩
  | .hbm, ⟨15, _⟩ => ⟨S512x16x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1024x1024, .bf16⟩
  | .local _ .vmem, ⟨13, _⟩ => ⟨S1024x1024, .bf16⟩
  | .local _ .smem, ⟨0, _⟩ => ⟨S16, .i32⟩
  | _, _ => ⟨S16x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v9 : Ref sig .tc := ⟨.hbm, 14, rfl⟩
abbrev main_v10 : Ref sig .tc := ⟨.hbm, 15, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  slices_S1024x2048_S1024x1024_0_0 : S1024x2048.Slices ![0, 0] S1024x1024
  slices_S1024x2048_S1024x1024_0_1024 : S1024x2048.Slices ![0, 1024] S1024x1024
  numel1_S1 : S1.numel = 1
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S1024x1024_S1024x1024_0_0 : (Rect.unit (s := S1024x1024) ![0, 0] S1024x1024.size inb_S1024x1024_S1024x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  iota_S256x1024_d1_w32 : S256x1024.Iotas .tc 32 [1]
  reduces_S256x1024_S256 : S256x1024.Reduces [1] S256
  shapeCasts_S256_S256x1 : S256.ShapeCasts S256x1
  broadcasts_S256x1_S256x1024 : S256x1.Broadcasts S256x1024
  shapeCasts_S256x1024_S1x256x1024 : S256x1024.ShapeCasts S1x256x1024
  transposes_S16x512x1024_S512x16x1024_1_0_2 : S16x512x1024.Transposes [1, 0, 2] S512x16x1024
  dot_S256x1024_S1024x1024_S256x1024_1_1_0_0_n_n_wf : DotDims.WF S256x1024 S1024x1024 S256x1024 [1] [1] [0] [0] [] []
  dot_S256x1024_S1024x1024_S256x1024_1_0_0_1_n_n_wf : DotDims.WF S256x1024 S1024x1024 S256x1024 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x512x1024.size a
  hwx0_0 : ∀ i : grid0.Coords, EltTy.bits .f32 = 32 ∨ (Rect.block (s := S16x512x1024) S1x256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S16x1024x1024.size a
  hwx0_1 : ∀ i : grid0.Coords, EltTy.bits .f32 = 32 ∨ (Rect.block (s := S16x1024x1024) S1x1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256x1024.size a ≤ S16x512x1024.size a
  hwx0_6 : ∀ i : grid0.Coords, EltTy.bits .f32 = 32 ∨ (Rect.block (s := S16x512x1024) S1x256x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x1024.size a ≤ S16x512x1024.size a
  hwx0_7 : ∀ i : grid0.Coords, EltTy.bits .f32 = 32 ∨ (Rect.block (s := S16x512x1024) S1x256x1024.size (cc0_transform_7 i) (hinb0_7 i)).WholeWords (EltTy.packing .f32)

variable [Facts₀]

def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf
def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev spec0_0 : Pipeline.WinSpec sig grid0.rank :=
  Pipeline.WinSpec.ofSpec (Memref.whole main_arg0) S1x256x1024.size reads0_0 false false 2 stage0_0 sem0_0 nbuf0_0 hstage0_0

abbrev spec0_1 : Pipeline.WinSpec sig grid0.rank :=
  Pipeline.WinSpec.ofSpec (Memref.whole main_arg1) S1x1024x1024.size reads0_1 false false 2 stage0_1 sem0_1 nbuf0_1 hstage0_1

abbrev spec0_2 : Pipeline.WinSpec sig grid0.rank :=
  Pipeline.WinSpec.ofSpec (Memref.whole main_v0) S1024x1024.size reads0_2 false true 1 stage0_2 sem0_2 nbuf0_2 hstage0_2

abbrev spec0_3 : Pipeline.WinSpec sig grid0.rank :=
  Pipeline.WinSpec.ofSpec (Memref.whole main_v3) S1024x1024.size reads0_3 false true 1 stage0_3 sem0_3 nbuf0_3 hstage0_3

abbrev spec0_4 : Pipeline.WinSpec sig grid0.rank :=
  Pipeline.WinSpec.ofSpec (Memref.whole main_v5) S1024x1024.size reads0_4 false true 1 stage0_4 sem0_4 nbuf0_4 hstage0_4

abbrev spec0_5 : Pipeline.WinSpec sig grid0.rank :=
  Pipeline.WinSpec.ofSpec (Memref.whole main_v7) S1024x1024.size reads0_5 false true 1 stage0_5 sem0_5 nbuf0_5 hstage0_5

abbrev spec0_6 : Pipeline.WinSpec sig grid0.rank :=
  Pipeline.WinSpec.ofSpec (Memref.whole main_v8_0) S1x256x1024.size reads0_6 true false 2 stage0_6 sem0_6 nbuf0_6 hstage0_6

abbrev spec0_7 : Pipeline.WinSpec sig grid0.rank :=
  Pipeline.WinSpec.ofSpec (Memref.whole main_v8_1) S1x256x1024.size reads0_7 true false 2 stage0_7 sem0_7 nbuf0_7 hstage0_7

abbrev spec0 : Fin 8 → Pipeline.WinSpec sig grid0.rank := fun | 0 => spec0_0 | 1 => spec0_1 | 2 => spec0_2 | 3 => spec0_3 | 4 => spec0_4 | 5 => spec0_5 | 6 => spec0_6 | 7 => spec0_7 | ⟨_ + 8, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | 4 => nbuf0_4 | 5 => nbuf0_5 | 6 => nbuf0_6 | 7 => nbuf0_7 | ⟨_ + 8, h⟩ => absurd h (Nat.not_lt.2 (Nat.le_add_left _ _))
abbrev ix0 (pf : pre0.Contents (Elt F)) : (w : Fin 8) → grid0.Coords → Fin (spec0 w).shape.rank → Nat := fun | 0 => cc0_transform_0 | 1 => cc0_transform_1 | 2 => cc0_transform_2 | 3 => cc0_transform_3 | 4 => cc0_transform_4 | 5 => cc0_transform_5 | 6 => cc0_transform_6 | 7 => cc0_transform_7 | ⟨_ + 8, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | 4 => hreads0_4 | 5 => hreads0_5 | 6 => hreads0_6 | 7 => hreads0_7 | ⟨_ + 8, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | 4 => hinb0_4 | 5 => hinb0_5 | 6 => hinb0_6 | 7 => hinb0_7 | ⟨_ + 8, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | 4 => hwx0_4 | 5 => hwx0_5 | 6 => hwx0_6 | 7 => hwx0_7 | ⟨_ + 8, h⟩ => absurd h (Nat.not_lt.2 (Nat.le_add_left _ _))

class Facts : Prop extends Facts₀ where
  harr0 : ∀ w, (spec0 w).arr.IsWhole

variable [Facts]
-- ==== ReferenceIdeal.lean ====
abbrev S16x512x1024 : Shape := ⟨3, ![16, 512, 1024]⟩
abbrev S16x1024x1024 : Shape := ⟨3, ![16, 1024, 1024]⟩
abbrev S16 : Shape := ⟨1, ![16]⟩
abbrev S1024x1024 : Shape := ⟨2, ![1024, 1024]⟩
abbrev S1024x2048 : Shape := ⟨2, ![1024, 2048]⟩
abbrev S1024 : Shape := ⟨1, ![1024]⟩
abbrev S16x1 : Shape := ⟨2, ![16, 1]⟩
abbrev S1x1024 : Shape := ⟨2, ![1, 1024]⟩
abbrev S16x1024 : Shape := ⟨2, ![16, 1024]⟩
abbrev S16x1x1024 : Shape := ⟨3, ![16, 1, 1024]⟩
abbrev S_ : Shape := ⟨0, ![]⟩
abbrev S16x512 : Shape := ⟨2, ![16, 512]⟩
abbrev S16x512x1 : Shape := ⟨3, ![16, 512, 1]⟩
abbrev S16x512x2048 : Shape := ⟨3, ![16, 512, 2048]⟩
abbrev S512x16x1024 : Shape := ⟨3, ![512, 16, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x512x1024, .f32⟩
  | .hbm, ⟨1, _⟩ => ⟨S16x1024x1024, .f32⟩
  | .hbm, ⟨2, _⟩ => ⟨S16, .i32⟩
  | .hbm, ⟨3, _⟩ => ⟨S1024x1024, .f32⟩
  | .hbm, ⟨4, _⟩ => ⟨S1024x2048, .f32⟩
  | .hbm, ⟨5, _⟩ => ⟨S16x512x1024, .f32⟩
  | .hbm, ⟨6, _⟩ => ⟨S16x512x1024, .f32⟩
  | .hbm, ⟨7, _⟩ => ⟨S1024, .i32⟩
  | .hbm, ⟨8, _⟩ => ⟨S16x1, .i32⟩
  | .hbm, ⟨9, _⟩ => ⟨S1x1024, .i32⟩
  | .hbm, ⟨10, _⟩ => ⟨S16x1024, .i32⟩
  | .hbm, ⟨11, _⟩ => ⟨S16x1024, .i32⟩
  | .hbm, ⟨12, _⟩ => ⟨S16x1024, .i1⟩
  | .hbm, ⟨13, _⟩ => ⟨S16x1x1024, .i1⟩
  | .hbm, ⟨14, _⟩ => ⟨S_, .f32⟩
  | .hbm, ⟨15, _⟩ => ⟨S_, .f32⟩
  | .hbm, ⟨16, _⟩ => ⟨S16x512x1024, .i1⟩
  | .hbm, ⟨17, _⟩ => ⟨S16x512x1024, .f32⟩
  | .hbm, ⟨18, _⟩ => ⟨S16x512x1024, .f32⟩
  | .hbm, ⟨19, _⟩ => ⟨S_, .f32⟩
  | .hbm, ⟨20, _⟩ => ⟨S16x512, .f32⟩
  | .hbm, ⟨21, _⟩ => ⟨S_, .f32⟩
  | .hbm, ⟨22, _⟩ => ⟨S16x512, .f32⟩
  | .hbm, ⟨23, _⟩ => ⟨S16x512, .f32⟩
  | .hbm, ⟨24, _⟩ => ⟨S16x512x1, .f32⟩
  | .hbm, ⟨25, _⟩ => ⟨S16x512x1024, .f32⟩
  | .hbm, ⟨26, _⟩ => ⟨S16x512x1024, .f32⟩
  | .hbm, ⟨27, _⟩ => ⟨S16x512x1024, .f32⟩
  | .hbm, ⟨28, _⟩ => ⟨S_, .f32⟩
  | .hbm, ⟨29, _⟩ => ⟨S16x512, .f32⟩
  | .hbm, ⟨30, _⟩ => ⟨S16x512x1, .f32⟩
  | .hbm, ⟨31, _⟩ => ⟨S16x512x1024, .f32⟩
  | .hbm, ⟨32, _⟩ => ⟨S16x512x1024, .f32⟩
  | .hbm, ⟨33, _⟩ => ⟨S16x512x1024, .f32⟩
  | .hbm, ⟨34, _⟩ => ⟨S16x512x2048, .f32⟩
  | .hbm, ⟨35, _⟩ => ⟨S16x512x1024, .f32⟩
  | .hbm, ⟨36, _⟩ => ⟨S16x512x1024, .f32⟩
  | .hbm, ⟨37, _⟩ => ⟨S512x16x1024, .f32⟩
  | .hbm, ⟨38, _⟩ => ⟨S512x16x1024, .f32⟩
  | _, _ => ⟨S16x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩

abbrev nD : Nat := 1
abbrev τ : Topo := Topo.v7x

variable {F : FTy → Type} [FloatOps F]

class Facts₀ : Prop where
  bcast_S16_S16x1_0 : S16.BroadcastsInDim S16x1 (![0] : Fin 1 → Fin S16x1.rank)
  bcast_S1024_S1x1024_1 : S1024.BroadcastsInDim S1x1024 (![1] : Fin 1 → Fin S1x1024.rank)
  bcast_S1x1024_S16x1024_0_1 : S1x1024.BroadcastsInDim S16x1024 (![0, 1] : Fin 2 → Fin S16x1024.rank)
  bcast_S16x1_S16x1024_0_1 : S16x1.BroadcastsInDim S16x1024 (![0, 1] : Fin 2 → Fin S16x1024.rank)
  bcast_S16x1024_S16x1x1024_0_2 : S16x1024.BroadcastsInDim S16x1x1024 (![0, 2] : Fin 2 → Fin S16x1x1024.rank)
  bcast_S16x1x1024_S16x512x1024_0_1_2 : S16x1x1024.BroadcastsInDim S16x512x1024 (![0, 1, 2] : Fin 3 → Fin S16x512x1024.rank)
  bcast_S_S16x512x1024 : S_.BroadcastsInDim S16x512x1024 (![] : Fin 0 → Fin S16x512x1024.rank)
  reducesTo_S16x512x1024_S16x512_d2 : S16x512x1024.ReducesTo [2] S16x512
  h_S_ : 0 < S_.numel
  bcast_S_S16x512 : S_.BroadcastsInDim S16x512 (![] : Fin 0 → Fin S16x512.rank)
  bcast_S16x512_S16x512x1_0_1 : S16x512.BroadcastsInDim S16x512x1 (![0, 1] : Fin 2 → Fin S16x512x1.rank)
  bcast_S16x512x1_S16x512x1024_0_1_2 : S16x512x1.BroadcastsInDim S16x512x1024 (![0, 1, 2] : Fin 3 → Fin S16x512x1024.rank)
  concatenates_S16x512x1024_S16x512x1024_S16x512x2048_d2 : Shape.Concatenates [S16x512x1024, S16x512x1024] S16x512x2048 2
  transposes_S16x512x1024_S512x16x1024_1_0_2 : S16x512x1024.Transposes [1, 0, 2] S512x16x1024
  dot_S16x512x1024_S1024x1024_S16x512x1024_2_1_01_0_n_n_wf : DotDims.WF S16x512x1024 S1024x1024 S16x512x1024 [2] [1] [0, 1] [0] [] []
  dot_S16x512x1024_S16x1024x1024_S16x512x1024_2_2_1_1_0_0_wf : DotDims.WF S16x512x1024 S16x1024x1024 S16x512x1024 [2] [2] [1] [1] [0] [0]
  dot_S16x512x1024_S16x1024x1024_S16x512x1024_2_1_1_2_0_0_wf : DotDims.WF S16x512x1024 S16x1024x1024 S16x512x1024 [2] [1] [1] [2] [0] [0]
  dot_S16x512x2048_S1024x2048_S16x512x1024_2_1_01_0_n_n_wf : DotDims.WF S16x512x2048 S1024x2048 S16x512x1024 [2] [1] [0, 1] [0] [] []

variable [Facts₀]

def dot_S16x512x1024_S1024x1024_S16x512x1024_2_1_01_0_n_n : DotDims S16x512x1024 S1024x1024 S16x512x1024 where
  lhsContracting := [2]
  rhsContracting := [1]
  lhsNonContracting := [0, 1]
  rhsNonContracting := [0]
  lhsBatch := []
  rhsBatch := []
  wf := dot_S16x512x1024_S1024x1024_S16x512x1024_2_1_01_0_n_n_wf
def dot_S16x512x1024_S16x1024x1024_S16x512x1024_2_2_1_1_0_0 : DotDims S16x512x1024 S16x1024x1024 S16x512x1024 where
  lhsContracting := [2]
  rhsContracting := [2]
  lhsNonContracting := [1]
  rhsNonContracting := [1]
  lhsBatch := [0]
  rhsBatch := [0]
  wf := dot_S16x512x1024_S16x1024x1024_S16x512x1024_2_2_1_1_0_0_wf
def dot_S16x512x1024_S16x1024x1024_S16x512x1024_2_1_1_2_0_0 : DotDims S16x512x1024 S16x1024x1024 S16x512x1024 where
  lhsContracting := [2]
  rhsContracting := [1]
  lhsNonContracting := [1]
  rhsNonContracting := [2]
  lhsBatch := [0]
  rhsBatch := [0]
  wf := dot_S16x512x1024_S16x1024x1024_S16x512x1024_2_1_1_2_0_0_wf
def dot_S16x512x2048_S1024x2048_S16x512x1024_2_1_01_0_n_n : DotDims S16x512x2048 S1024x2048 S16x512x1024 where
  lhsContracting := [2]
  rhsContracting := [1]
  lhsNonContracting := [0, 1]
  rhsNonContracting := [0]
  lhsBatch := []
  rhsBatch := []
  wf := dot_S16x512x2048_S1024x2048_S16x512x1024_2_1_01_0_n_n_wf

class Facts : Prop extends Facts₀ where

variable [Facts]
-- ==== Proof.Finite.lean ====
/-
  Finite extended reals. An extended real is FINITE when it is neither infinity; the finite ones are the
  image of the reals, closed under sums, products and finite sums, and they are exactly where `x - x = 0`
  holds (at an infinity the difference is `⊥`).
-/
import Mathlib.Data.EReal.Basic
import Mathlib.Data.EReal.Operations
import Mathlib.Algebra.BigOperators.Group.Finset.Basic

namespace Cert.Attn

/-- `x` is a real number: neither `⊤` nor `⊥`. -/
def Fin' (x : EReal) : Prop := ∃ r : ℝ, x = (r : EReal)

theorem Fin'.coe (r : ℝ) : Fin' (r : EReal) := ⟨r, rfl⟩

theorem Fin'.zero : Fin' (0 : EReal) := ⟨0, rfl⟩

theorem Fin'.add {x y : EReal} (hx : Fin' x) (hy : Fin' y) : Fin' (x + y) := by
  obtain ⟨a, rfl⟩ := hx; obtain ⟨b, rfl⟩ := hy; exact ⟨a + b, (EReal.coe_add a b).symm⟩

theorem Fin'.mul {x y : EReal} (hx : Fin' x) (hy : Fin' y) : Fin' (x * y) := by
  obtain ⟨a, rfl⟩ := hx; obtain ⟨b, rfl⟩ := hy; exact ⟨a * b, (EReal.coe_mul a b).symm⟩

/-- A finite sum of real numbers is a real number. -/
theorem Fin'.sum {ι : Type*} (s : Finset ι) (f : ι → EReal) (h : ∀ i ∈ s, Fin' (f i)) : Fin' (∑ i ∈ s, f i) := by
  classical
  induction s using Finset.induction_on with
  | empty => simpa using Fin'.zero
  | insert a s ha ih =>
    rw [Finset.sum_insert ha]
    exact (h a (Finset.mem_insert_self a s)).add (ih fun i hi => h i (Finset.mem_insert_of_mem hi))

/-- On the reals the difference of a number and itself is zero (at an infinity it is `⊥`). -/
theorem Fin'.sub_self {x : EReal} (hx : Fin' x) : x - x = 0 := by
  obtain ⟨a, rfl⟩ := hx
  rw [← EReal.coe_sub, _root_.sub_self, EReal.coe_zero]

theorem Fin'.ne_top {x : EReal} (hx : Fin' x) : x ≠ ⊤ := by
  obtain ⟨a, rfl⟩ := hx; exact EReal.coe_ne_top a

theorem Fin'.ne_bot {x : EReal} (hx : Fin' x) : x ≠ ⊥ := by
  obtain ⟨a, rfl⟩ := hx; exact EReal.coe_ne_bot a

theorem fin'_of_ne {x : EReal} (h₁ : x ≠ ⊤) (h₂ : x ≠ ⊥) : Fin' x :=
  ⟨x.toReal, (EReal.coe_toReal h₁ h₂).symm⟩

end Cert.Attn
-- ==== Proof.Spec.lean ====
/-
  Dot-product attention with a length mask, one query row at a time.

  For a query row `q` (1024 numbers), the batch's memory matrix `M` (1024 positions × 1024 features), the input
  projection `Wi`, the two halves `Wc`, `Wq` of the output projection and the batch's length `len`:
    p   = q Wiᵀ                                   (the projected query)
    x_s = ⟨p, M_s⟩ for s < len, −∞ otherwise       (the masked scores; `s < len` on signed 32-bit words)
    a   = softmax x = exp (x − max x) / ∑ exp (x − max x)
    c   = a M                                      (the context)
    h   = tanh (c Wcᵀ + q Wqᵀ)
  The results are `h` and `a`, laid out target position first: `[t, b, ·]`.

  Everything is read on the extended reals; the functions below are total there. When `q`, `M`, `Wi` hold real
  numbers and position 0 is kept (`len ≥ 1`) every intermediate is a real number: the maximum is attained on a
  real score, its exponential is 1, so the normaliser is a real number ≥ 1 … > 0.
-/
import Idealize.ShloMosaic.PureOps.Ideal
import Idealize.ShloMosaic.Lib.ValueIdx
import proofs.«404834_j81260781241005_3_alg».proof.Proof.Finite

noncomputable section

namespace Cert.Attn

open Idealize.ShloMosaic Idealize.ShloMosaic.ValueIdx

/-- The projected query: `p_e = ∑_d q_d · Wi[e, d]`. -/
def proj (q : Fin 1024 → EReal) (Wi : Fin 1024 → Fin 1024 → EReal) (e : Fin 1024) : EReal :=
  ∑ d : Fin 1024, q d * Wi e d

/-- The score of a projected query against memory position `s`: `∑_d p_d · M[s, d]`. -/
def score (p : Fin 1024 → EReal) (M : Fin 1024 → Fin 1024 → EReal) (s : Fin 1024) : EReal :=
  ∑ d : Fin 1024, p d * M s d

/-- Whether position `s` lies inside the length: `s < len`, both read as signed 32-bit words. -/
def keep (len : BitVec 32) (s : Fin 1024) : BitVec 1 := IntOp.cmpi .slt (BitVec.ofNat 32 s.val) len

/-- The masked row: a position outside the length scores `−∞`. -/
def maskRow (len : BitVec 32) (x : Fin 1024 → EReal) (s : Fin 1024) : EReal :=
  Scalar.select (keep len s) (x s) ⊥

/-- The row's maximum (from `−∞`). -/
def rowMax (x : Fin 1024 → EReal) : EReal := (Finset.univ : Finset (Fin 1024)).fold max ⊥ x

/-- The softmax of a row: `exp (x_s − max x) / ∑_s' exp (x_s' − max x)`. -/
def soft (x : Fin 1024 → EReal) (s : Fin 1024) : EReal :=
  Ideal.div (Ideal.exp (x s - rowMax x)) (∑ s' : Fin 1024, Ideal.exp (x s' - rowMax x))

/-- The attention weights of a query row. -/
def attnRow (q : Fin 1024 → EReal) (M Wi : Fin 1024 → Fin 1024 → EReal) (len : BitVec 32) : Fin 1024 → EReal :=
  soft (maskRow len (score (proj q Wi) M))

/-- The context of a row of weights: `c_d = ∑_s a_s · M[s, d]`. -/
def ctxRow (a : Fin 1024 → EReal) (M : Fin 1024 → Fin 1024 → EReal) (d : Fin 1024) : EReal :=
  ∑ s : Fin 1024, a s * M s d

/-- The output row: `h_e = tanh (∑_k c_k · Wc[e, k] + ∑_k q_k · Wq[e, k])`. -/
def hRow (q : Fin 1024 → EReal) (M Wi Wc Wq : Fin 1024 → Fin 1024 → EReal) (len : BitVec 32) (e : Fin 1024) : EReal :=
  Ideal.tanh ((∑ k : Fin 1024, ctxRow (attnRow q M Wi len) M k * Wc e k) + ∑ k : Fin 1024, q k * Wq e k)

/-! ## The two results as whole arrays of the five arguments -/

/-- Query row `(b, t)` of the queries. -/
def qRow (a0 : (⟨3, ![16, 512, 1024]⟩ : Shape).Idx → EReal) (b : Fin 16) (t : Fin 512) : Fin 1024 → EReal :=
  fun d => a0 (ix3 b t d)
/-- Batch `b`'s memory matrix. -/
def mMat (a1 : (⟨3, ![16, 1024, 1024]⟩ : Shape).Idx → EReal) (b : Fin 16) : Fin 1024 → Fin 1024 → EReal :=
  fun s d => a1 (ix3 b s d)
/-- A square weight matrix by its coordinates. -/
def wMat (a3 : (⟨2, ![1024, 1024]⟩ : Shape).Idx → EReal) : Fin 1024 → Fin 1024 → EReal := fun e d => a3 (ix2 e d)
/-- The output projection's context half: its first 1024 columns. -/
def wLo (a4 : (⟨2, ![1024, 2048]⟩ : Shape).Idx → EReal) : Fin 1024 → Fin 1024 → EReal :=
  fun e k => a4 (ix2 e (Fin.castAdd 1024 k))
/-- The output projection's query half: its last 1024 columns. -/
def wHi (a4 : (⟨2, ![1024, 2048]⟩ : Shape).Idx → EReal) : Fin 1024 → Fin 1024 → EReal :=
  fun e k => a4 (ix2 e (Fin.natAdd 1024 k))

/-- The attention weights, `[t, b, s]`. -/
def OutA (a0 : (⟨3, ![16, 512, 1024]⟩ : Shape).Idx → EReal) (a1 : (⟨3, ![16, 1024, 1024]⟩ : Shape).Idx → EReal)
    (a2 : (⟨1, ![16]⟩ : Shape).Idx → BitVec 32) (a3 : (⟨2, ![1024, 1024]⟩ : Shape).Idx → EReal) :
    (⟨3, ![512, 16, 1024]⟩ : Shape).Idx → EReal := fun i =>
  let t : Fin 512 := i 0
  let b : Fin 16 := i 1
  let s : Fin 1024 := i 2
  attnRow (qRow a0 b t) (mMat a1 b) (wMat a3) (a2 (ix1 b)) s

/-- The attentional hidden state, `[t, b, e]`. -/
def OutH (a0 : (⟨3, ![16, 512, 1024]⟩ : Shape).Idx → EReal) (a1 : (⟨3, ![16, 1024, 1024]⟩ : Shape).Idx → EReal)
    (a2 : (⟨1, ![16]⟩ : Shape).Idx → BitVec 32) (a3 : (⟨2, ![1024, 1024]⟩ : Shape).Idx → EReal)
    (a4 : (⟨2, ![1024, 2048]⟩ : Shape).Idx → EReal) :
    (⟨3, ![512, 16, 1024]⟩ : Shape).Idx → EReal := fun i =>
  let t : Fin 512 := i 0
  let b : Fin 16 := i 1
  let e : Fin 1024 := i 2
  hRow (qRow a0 b t) (mMat a1 b) (wMat a3) (wLo a4) (wHi a4) (a2 (ix1 b)) e

end Cert.Attn

end
-- ==== Proof.RefValue.lean ====
/-
  The reference's two results are the specification's arrays: read one operation at a time, its hidden state at
  `[t, b, e]` is `tanh` of the concatenated row `[c, q]` against row `e` of the output projection, which splits into
  the context's sum over the first 1024 columns and the query's over the last 1024; its weights are the softmax of
  the masked scores, whose maximum from `−∞` over the row is the row's maximum.
-/
import proofs.«404834_j81260781241005_3_alg».proof.Proof.RefRead
import proofs.«404834_j81260781241005_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.ValueIdx Cert.ReferenceIdeal Cert.ReferenceIdeal.Gen Cert.ReferenceIdeal.ReadP Cert.Attn

/-- The word `0xFF800000` is `−∞`. -/
theorem negInf : Ideal.ofBits .f32 0xFF800000#32 = (⊥ : EReal) := by simp [Ideal.ofBits, Ideal.ieee]

section Rows

variable (x0 : (⟨S16x512x1024, .f32⟩ : BufTy).Contents (Elt Ideal)) (x1 : (⟨S16x1024x1024, .f32⟩ : BufTy).Contents (Elt Ideal))
    (x2 : (⟨S16, .i32⟩ : BufTy).Contents (Elt Ideal)) (x3 : (⟨S1024x1024, .f32⟩ : BufTy).Contents (Elt Ideal))
    (x4 : (⟨S1024x2048, .f32⟩ : BufTy).Contents (Elt Ideal))

/-- The masked scores of query row `(b, t)`. -/
abbrev mrow (b : Fin 16) (t : Fin 512) : Fin 1024 → EReal :=
  maskRow (x2 (ix1 b)) (score (proj (qRow x0 b t) (wMat x3)) (mMat x1 b))

/-- The projected query: `∑_d x0[b,t,d] · x3[e,d]`. -/
theorem v0_at (b : Fin 16) (t : Fin 512) (e : Fin 1024) :
    val_main_v0 (F := Ideal) x0 x3 (ix3 b t e) = proj (qRow x0 b t) (wMat x3) e := by
  rw [val_main_v0_apply]
  unfold proj
  refine Finset.sum_congr rfl fun k _ => ?_
  have e1 : lidx_main_v0 (ix3 b t e) k = ix3 b t k := funext fun a => Fin.ext (by
    match a with | ⟨0, _⟩ => rfl | ⟨1, _⟩ => rfl | ⟨2, _⟩ => rfl)
  have e2 : ridx_main_v0 (ix3 b t e) k = ix2 e k := funext fun a => Fin.ext (by
    match a with | ⟨0, _⟩ => rfl | ⟨1, _⟩ => rfl)
  rw [e1, e2]
  rfl

/-- The score: `∑_d p_d · x1[b,s,d]`. -/
theorem v1_at (b : Fin 16) (t : Fin 512) (s : Fin 1024) :
    val_main_v1 (F := Ideal) x0 x1 x3 (ix3 b t s) = score (proj (qRow x0 b t) (wMat x3)) (mMat x1 b) s := by
  rw [val_main_v1_apply]
  unfold score
  refine Finset.sum_congr rfl fun k _ => ?_
  have e1 : lidx_main_v1 (ix3 b t s) k = ix3 b t k := funext fun a => Fin.ext (by
    match a with | ⟨0, _⟩ => rfl | ⟨1, _⟩ => rfl | ⟨2, _⟩ => rfl)
  have e2 : ridx_main_v1 (ix3 b t s) k = ix3 b s k := funext fun a => Fin.ext (by
    match a with | ⟨0, _⟩ => rfl | ⟨1, _⟩ => rfl | ⟨2, _⟩ => rfl)
  rw [e1, e2, v0_at]
  rfl

/-- The mask word: position `s` against batch `b`'s length, as signed words. -/
theorem mask_at (b : Fin 16) (t : Fin 512) (s : Fin 1024) :
    val_main_call0_v1 (F := Ideal) x2 (ix3 b t s) = keep (x2 (ix1 b)) s := by
  rw [val_main_call0_v1_apply, val_main_v8_apply, val_main_v7_apply, val_main_v5_apply, val_main_v4_apply,
    val_main_v2_apply, val_main_v6_apply, val_main_v3_apply]
  unfold keep
  have e1 : idx_main_v3 (idx_main_v6 (idx_main_v8 (idx_main_call0_v1 (ix3 b t s)))) = ix1 b := funext fun a => Fin.ext (by
    match a with | ⟨0, _⟩ => rfl)
  rw [e1]

/-- The masked score. -/
theorem v9_at (b : Fin 16) (t : Fin 512) (s : Fin 1024) :
    val_main_v9 (F := Ideal) x0 x1 x2 x3 (ix3 b t s) = mrow x0 x1 x2 x3 b t s := by
  rw [val_main_v9_apply, mask_at, v1_at, val_main_call0_v2_apply, val_main_call0_v0_apply, val_main_cst_apply,
    Ideal.ofBits_def, negInf]
  rfl

/-- The reduced axis is the last: `[16, 512, 1024]` drops to `[16, 512]`. -/
theorem reduces2 : S16x512x1024.Reduces [2] S16x512 := by decide

/-- Row `(b, t)` with position `k` put back is `(b, t, k)`. -/
theorem lift2 (b : Fin 16) (t : Fin 512) (k : Fin (S16x512x1024.size 2)) :
    reduces2.lift (ix2 b t) k = ix3 b t (⟨k.val, k.isLt⟩ : Fin 1024) := by
  funext c
  apply Fin.ext
  match c with | ⟨0, _⟩ => rfl | ⟨1, _⟩ => rfl | ⟨2, _⟩ => rfl

/-- The maximum from `−∞` over the positions is the masked row's maximum. -/
theorem v10_at (b : Fin 16) (t : Fin 512) :
    val_main_v10 (F := Ideal) x0 x1 x2 x3 (ix2 b t) = rowMax (mrow x0 x1 x2 x3 b t) := by
  unfold val_main_v10
  rw [Host.reduce_eq_fold_single FloatOps.maximumf _ _ reducesTo_S16x512x1024_S16x512_d2 reduces2 h_S_]
  have hf : (val_main_v9 (F := Ideal) x0 x1 x2 x3 ∘ reduces2.lift (ix2 b t)) = fun s : Fin 1024 => mrow x0 x1 x2 x3 b t s :=
    funext fun k => by
      show val_main_v9 (F := Ideal) x0 x1 x2 x3 (reduces2.lift (ix2 b t) k) = _
      rw [lift2, v9_at]
      rfl
  rw [hf, val_main_cst_0_apply, Ideal.ofBits_def, negInf]
  rfl

/-- The maximum with the `−∞` splat changes nothing. -/
theorem v12_at (b : Fin 16) (t : Fin 512) :
    val_main_v12 (F := Ideal) x0 x1 x2 x3 (ix2 b t) = rowMax (mrow x0 x1 x2 x3 b t) := by
  rw [val_main_v12_apply, val_main_v11_apply, val_main_cst_1_apply, v10_at, Ideal.ofBits_def, negInf, Ideal.maximumf_def,
    max_bot_left]

/-- The row's maximum, broadcast along the positions. -/
theorem v14_at (b : Fin 16) (t : Fin 512) (s : Fin 1024) :
    val_main_v14 (F := Ideal) x0 x1 x2 x3 (ix3 b t s) = rowMax (mrow x0 x1 x2 x3 b t) := by
  rw [val_main_v14_apply, val_main_v13_apply]
  have e1 : idx_main_v13 (idx_main_v14 (ix3 b t s)) = ix2 b t := funext fun a => Fin.ext (by
    match a with | ⟨0, _⟩ => rfl | ⟨1, _⟩ => rfl)
  rw [e1, v12_at]

/-- The exponential of the masked score less the row's maximum. -/
theorem v16_at (b : Fin 16) (t : Fin 512) (s : Fin 1024) :
    val_main_v16 (F := Ideal) x0 x1 x2 x3 (ix3 b t s)
      = Ideal.exp (mrow x0 x1 x2 x3 b t s - rowMax (mrow x0 x1 x2 x3 b t)) := by
  rw [val_main_v16_apply, val_main_v15_apply, v9_at, v14_at]
  rfl

/-- The normaliser: the sum of the exponentials over the positions. -/
theorem v17_at (b : Fin 16) (t : Fin 512) :
    val_main_v17 (F := Ideal) x0 x1 x2 x3 (ix2 b t)
      = ∑ s' : Fin 1024, Ideal.exp (mrow x0 x1 x2 x3 b t s' - rowMax (mrow x0 x1 x2 x3 b t)) := by
  rw [val_main_v17_apply, val_main_cst_2_apply, Ideal.ofBits_def, Ideal.ofBits_zero_f32, zero_add]
  refine Finset.sum_congr rfl fun k _ => ?_
  have e1 : idx_main_v17 (ix2 b t) k = ix3 b t k := funext fun a => Fin.ext (by
    match a with | ⟨0, _⟩ => rfl | ⟨1, _⟩ => rfl | ⟨2, _⟩ => rfl)
  rw [e1, v16_at]

/-- The attention weight of position `s` in row `(b, t)`. -/
theorem v20_at (b : Fin 16) (t : Fin 512) (s : Fin 1024) :
    val_main_v20 (F := Ideal) x0 x1 x2 x3 (ix3 b t s)
      = attnRow (qRow x0 b t) (mMat x1 b) (wMat x3) (x2 (ix1 b)) s := by
  rw [val_main_v20_apply, val_main_v19_apply, val_main_v18_apply, v16_at]
  have e1 : idx_main_v18 (idx_main_v19 (ix3 b t s)) = ix2 b t := funext fun a => Fin.ext (by
    match a with | ⟨0, _⟩ => rfl | ⟨1, _⟩ => rfl)
  rw [e1, v17_at]
  rfl

/-- The context: `∑_s a_s · x1[b,s,d]`. -/
theorem v21_at (b : Fin 16) (t : Fin 512) (d : Fin 1024) :
    val_main_v21 (F := Ideal) x0 x1 x2 x3 (ix3 b t d)
      = ctxRow (attnRow (qRow x0 b t) (mMat x1 b) (wMat x3) (x2 (ix1 b))) (mMat x1 b) d := by
  rw [val_main_v21_apply]
  unfold ctxRow
  refine Finset.sum_congr rfl fun k _ => ?_
  have e1 : lidx_main_v21 (ix3 b t d) k = ix3 b t k := funext fun a => Fin.ext (by
    match a with | ⟨0, _⟩ => rfl | ⟨1, _⟩ => rfl | ⟨2, _⟩ => rfl)
  have e2 : ridx_main_v21 (ix3 b t d) k = ix3 b k d := funext fun a => Fin.ext (by
    match a with | ⟨0, _⟩ => rfl | ⟨1, _⟩ => rfl | ⟨2, _⟩ => rfl)
  rw [e1, e2, v20_at]
  rfl

/-- The joined row's first 1024 entries are the context's. -/
theorem v22_lo (b : Fin 16) (t : Fin 512) (k : Fin 1024) :
    val_main_v22 (F := Ideal) x0 x1 x2 x3 (ix3 b t (Fin.castAdd 1024 k : Fin 2048))
      = val_main_v21 (F := Ideal) x0 x1 x2 x3 (ix3 b t k) := by
  unfold val_main_v22
  exact concatenate_pair_apply_left 2 _ _ concatenates_S16x512x1024_S16x512x1024_S16x512x2048_d2 _ rfl _ (fun c => by
    match c with | ⟨0, _⟩ => rfl | ⟨1, _⟩ => rfl | ⟨2, _⟩ => rfl)

/-- The joined row's last 1024 entries are the query's. -/
theorem v22_hi (b : Fin 16) (t : Fin 512) (k : Fin 1024) :
    val_main_v22 (F := Ideal) x0 x1 x2 x3 (ix3 b t (Fin.natAdd 1024 k : Fin 2048)) = x0 (ix3 b t k) := by
  unfold val_main_v22
  exact concatenate_pair_apply_right 2 _ _ concatenates_S16x512x1024_S16x512x1024_S16x512x2048_d2 _ rfl rfl _
    (fun c hc => by
      match c with | ⟨0, _⟩ => rfl | ⟨1, _⟩ => rfl | ⟨2, _⟩ => exact absurd rfl hc)
    (Nat.add_comm _ _)

/-- The joined row against row `e` of the output projection splits into the context's half and the query's. -/
theorem v23_at (b : Fin 16) (t : Fin 512) (e : Fin 1024) :
    val_main_v23 (F := Ideal) x0 x1 x2 x3 x4 (ix3 b t e)
      = (∑ k : Fin 1024, ctxRow (attnRow (qRow x0 b t) (mMat x1 b) (wMat x3) (x2 (ix1 b))) (mMat x1 b) k * wLo x4 e k)
        + ∑ k : Fin 1024, qRow x0 b t k * wHi x4 e k := by
  rw [val_main_v23_apply]
  have el : ∀ k : Fin 2048, lidx_main_v23 (ix3 b t e) k = ix3 b t k := fun k => funext fun a => Fin.ext (by
    match a with | ⟨0, _⟩ => rfl | ⟨1, _⟩ => rfl | ⟨2, _⟩ => rfl)
  have er : ∀ k : Fin 2048, ridx_main_v23 (ix3 b t e) k = ix2 e k := fun k => funext fun a => Fin.ext (by
    match a with | ⟨0, _⟩ => rfl | ⟨1, _⟩ => rfl)
  refine (Fin.sum_univ_add (a := 1024) (b := 1024) (fun k : Fin (1024 + 1024) =>
    val_main_v22 (F := Ideal) x0 x1 x2 x3 (lidx_main_v23 (ix3 b t e) k) * x4 (ridx_main_v23 (ix3 b t e) k))).trans ?_
  refine congrArg₂ (· + ·) (Finset.sum_congr rfl fun k _ => ?_) (Finset.sum_congr rfl fun k _ => ?_)
  · show val_main_v22 (F := Ideal) x0 x1 x2 x3 (lidx_main_v23 (ix3 b t e) (Fin.castAdd 1024 k : Fin 2048))
      * x4 (ridx_main_v23 (ix3 b t e) (Fin.castAdd 1024 k : Fin 2048)) = _
    rw [el, er, v22_lo, v21_at]
    rfl
  · show val_main_v22 (F := Ideal) x0 x1 x2 x3 (lidx_main_v23 (ix3 b t e) (Fin.natAdd 1024 k : Fin 2048))
      * x4 (ridx_main_v23 (ix3 b t e) (Fin.natAdd 1024 k : Fin 2048)) = _
    rw [el, er, v22_hi]
    rfl

end Rows

theorem outA_eq (x0 : (⟨S16x512x1024, .f32⟩ : BufTy).Contents (Elt Ideal)) (x1 : (⟨S16x1024x1024, .f32⟩ : BufTy).Contents (Elt Ideal))
    (x2 : (⟨S16, .i32⟩ : BufTy).Contents (Elt Ideal)) (x3 : (⟨S1024x1024, .f32⟩ : BufTy).Contents (Elt Ideal)) :
    val_main_v26 (F := Ideal) x0 x1 x2 x3 = OutA x0 x1 x2 x3 := by
  funext i
  obtain ⟨t, b, s, rfl⟩ : ∃ (t : Fin 512) (b : Fin 16) (s : Fin 1024), i = ix3 t b s := ⟨i 0, i 1, i 2, eq_ix3 i⟩
  rw [val_main_v26_apply]
  have e1 : idx_main_v26 (ix3 t b s) = ix3 b t s := funext fun a => Fin.ext (by
    match a with | ⟨0, _⟩ => rfl | ⟨1, _⟩ => rfl | ⟨2, _⟩ => rfl)
  rw [e1, v20_at]
  rfl

theorem outH_eq (x0 : (⟨S16x512x1024, .f32⟩ : BufTy).Contents (Elt Ideal)) (x1 : (⟨S16x1024x1024, .f32⟩ : BufTy).Contents (Elt Ideal))
    (x2 : (⟨S16, .i32⟩ : BufTy).Contents (Elt Ideal)) (x3 : (⟨S1024x1024, .f32⟩ : BufTy).Contents (Elt Ideal))
    (x4 : (⟨S1024x2048, .f32⟩ : BufTy).Contents (Elt Ideal)) :
    val_main_v25 (F := Ideal) x0 x1 x2 x3 x4 = OutH x0 x1 x2 x3 x4 := by
  funext i
  obtain ⟨t, b, e, rfl⟩ : ∃ (t : Fin 512) (b : Fin 16) (e : Fin 1024), i = ix3 t b e := ⟨i 0, i 1, i 2, eq_ix3 i⟩
  rw [val_main_v25_apply, val_main_v24_apply]
  have e1 : idx_main_v25 (ix3 t b e) = ix3 b t e := funext fun a => Fin.ext (by
    match a with | ⟨0, _⟩ => rfl | ⟨1, _⟩ => rfl | ⟨2, _⟩ => rfl)
  rw [e1, v23_at]
  rfl

end Cert.ReferenceIdeal.RefValue

end
-- ==== Proof.Block.lean ====
/-
  What one grid point computes, as two functions of the blocks it is handed: the attention weights of the
  point's 256 query rows and their hidden states. The point's memory block is kept twice in scratch, as
  itself and as the residual of its narrowing; both copies enter as functions of the memory block.
-/
import proofs.«404834_j81260781241005_3_alg».proof.Proof.Gen.KernelIdeal.Skeleton

noncomputable section

namespace Cert.KernelIdeal.Blk

open Idealize.ShloMosaic Cert.KernelIdeal Cert.KernelIdeal.Gen

variable {F : FTy → Type} [FloatOps F] [Named F]

/-- The attention weights a point writes: from the length word `w`, the query block `x0`, the memory block
    `x1` and the two parts `x2`, `x3` of the input projection. -/
def blkA (w : Elt F .i32) (x0 : Vec F S1x256x1024 .f32) (x1 : Vec F S1x1024x1024 .f32)
    (x2 x3 : Vec F S1024x1024 .bf16) : FVec F S1x256x1024 .f32 :=
  k0_pay3 (F := F) w (k0_pay12 (F := F) x0 x2 x3 (k0_pay5 (F := F) x1) (k0_pay6 (F := F) x1))
    (k0_pay13 (F := F) x0 x2 x3 (k0_pay5 (F := F) x1))

/-- The hidden states a point writes: as above, with the two halves `x4`, `x5` of the output projection. -/
def blkH (w : Elt F .i32) (x0 : Vec F S1x256x1024 .f32) (x1 : Vec F S1x1024x1024 .f32)
    (x2 x3 x4 x5 : Vec F S1024x1024 .bf16) : FVec F S1x256x1024 .f32 :=
  k0_pay2 (F := F) w (k0_pay8 (F := F) x4) (k0_pay9 (F := F) x5) (k0_pay10 (F := F) x0) (k0_pay5 (F := F) x1)
    (k0_pay12 (F := F) x0 x2 x3 (k0_pay5 (F := F) x1) (k0_pay6 (F := F) x1))
    (k0_pay13 (F := F) x0 x2 x3 (k0_pay5 (F := F) x1))

end Cert.KernelIdeal.Blk

end
-- ==== Proof.Pieces.lean ====
/-
  What every grid point leaves in the two output blocks, as the block functions of the blocks the point is
  handed. A batch's first point stores the memory copies into scratch and reads them back; its second point
  reads what the first left, which is the copies of the same memory block: the memory window does not move
  between the two points of a batch.
-/
import proofs.«404834_j81260781241005_3_alg».proof.Proof.Gen.KernelIdeal.Frame
import proofs.«404834_j81260781241005_3_alg».proof.Proof.Block
import Idealize.ShloMosaic.Lib.ValueIdx
import Idealize.ShloMosaic.Lib.Pipeline.Value

noncomputable section

set_option maxRecDepth 16384

namespace Cert.KernelIdeal.Pieces

open Idealize.ShloMosaic Idealize.ShloMosaic.TcCoe Idealize.ShloMosaic.ValueIdx Idealize.SL.Sem
open Cert.KernelIdeal Cert.KernelIdeal.Gen

variable {F : FTy → Type} [FloatOps F] [Named F]

/-! ## What one run of the body leaves, case by case

Every store of the body writes a whole buffer and every load reads one, so what a case leaves in a buffer is the
payload of the one store into it, read at the blocks the point is handed. -/

theorem zeros2 : (![0, 0] : Fin 2 → Nat) = fun _ => 0 := funext fun a => by fin_cases a <;> rfl
theorem zeros3 : (![0, 0, 0] : Fin 3 → Nat) = fun _ => 0 := funext fun a => by fin_cases a <;> rfl

/-- The word the body loads from the lengths at a point of grid coordinates `i`: the entry at the offset the body
    computes from the first coordinate. -/
def wordAt (c : Dev nD) (i : grid0.Coords) (xt0 : TbBuf0 (F := F) c tbM0_0) : Elt F .i32 :=
  View.ld (View.read (Elt F) (View.whole main_arg2) xt0) (Rect.unit (s := S16) (k0_off1 i) S1.size (Facts₀.k0_off1_inb i))
    (Shape.Idx.first (numel1_S1.symm ▸ Nat.one_pos))

/-- A batch's first point leaves the narrowed memory block in the first scratch buffer, -/
theorem scratch0_first (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1024x1024 .bf16) (harg11 : arg11.IsWhole) (arg12 : Memref sig .tc .vmem S1024x1024 .bf16) (harg12 : arg12.IsWhole) (hc0 : cond0_0 i)
    (x0 : Vec F S1x256x1024 .f32) (x1 : Vec F S1x1024x1024 .f32) (x2 : Vec F S1024x1024 .bf16) (x3 : Vec F S1024x1024 .bf16) (x4 : Vec F S1024x1024 .bf16) (x5 : Vec F S1024x1024 .bf16) (xt0 : TbBuf0 (F := F) c tbM0_0) :
    sout0_A_0 c i arg3 harg3 arg4 harg4 arg5 harg5 arg6 harg6 arg7 harg7 arg8 harg8 arg9 harg9 arg10 harg10 arg11 harg11 arg12 harg12 hc0 x0 x1 x2 x3 x4 x5 xt0 = k0_pay5 (F := F) x1 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 x0 x1 x2 x3 x4 x5 xt0)]
  unfold kernelRun0_A
  dsimp only
  sl_unfold_words
  rw [View.canon_unit_zero zeros2]
  simp only [View.readAt_eq_ld, harg4.read_unread, View.ld_unit_zero (S := S1x1024x1024) zeros3]

/-- and the narrowed residual of that narrowing in the second. -/
theorem scratch1_first (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1024x1024 .bf16) (harg11 : arg11.IsWhole) (arg12 : Memref sig .tc .vmem S1024x1024 .bf16) (harg12 : arg12.IsWhole) (hc0 : cond0_0 i)
    (x0 : Vec F S1x256x1024 .f32) (x1 : Vec F S1x1024x1024 .f32) (x2 : Vec F S1024x1024 .bf16) (x3 : Vec F S1024x1024 .bf16) (x4 : Vec F S1024x1024 .bf16) (x5 : Vec F S1024x1024 .bf16) (xt0 : TbBuf0 (F := F) c tbM0_0) :
    sout0_A_1 c i arg3 harg3 arg4 harg4 arg5 harg5 arg6 harg6 arg7 harg7 arg8 harg8 arg9 harg9 arg10 harg10 arg11 harg11 arg12 harg12 hc0 x0 x1 x2 x3 x4 x5 xt0 = k0_pay6 (F := F) x1 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 hc0 x0 x1 x2 x3 x4 x5 xt0)]
  unfold kernelRun0_A
  dsimp only
  sl_unfold_words
  rw [View.canon_unit_zero zeros2]
  simp only [View.readAt_eq_ld, harg4.read_unread, View.ld_unit_zero (S := S1x1024x1024) zeros3]

/-- The hidden states a batch's first point leaves: it reads back the two copies it has just stored. -/
theorem hidden_first (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1024x1024 .bf16) (harg11 : arg11.IsWhole) (arg12 : Memref sig .tc .vmem S1024x1024 .bf16) (harg12 : arg12.IsWhole) (hc0 : cond0_0 i)
    (x0 : Vec F S1x256x1024 .f32) (x1 : Vec F S1x1024x1024 .f32) (x2 : Vec F S1024x1024 .bf16) (x3 : Vec F S1024x1024 .bf16) (x4 : Vec F S1024x1024 .bf16) (x5 : Vec F S1024x1024 .bf16) (xt0 : TbBuf0 (F := F) c tbM0_0) :
    out0_A_6 c i arg3 harg3 arg4 harg4 arg5 harg5 arg6 harg6 arg7 harg7 arg8 harg8 arg9 harg9 arg10 harg10 arg11 harg11 arg12 harg12 hc0 x0 x1 x2 x3 x4 x5 xt0 = k0_pay2 (F := F) (wordAt c i xt0) (k0_pay8 (F := F) x4) (k0_pay9 (F := F) x5) (k0_pay10 (F := F) x0) (k0_pay5 (F := F) x1) (k0_pay12 (F := F) x0 x2 x3 (k0_pay5 (F := F) x1) (k0_pay6 (F := F) x1)) (k0_pay13 (F := F) x0 x2 x3 (k0_pay5 (F := F) x1)) := by
  unfold out0_A_6
  rw [View.read_writes_eq_canon _ _ _ (cover0_A_6 c i arg3 harg3 arg4 harg4 arg5 harg5 arg6 harg6 arg7 harg7 arg8 harg8 arg9 harg9 arg10 harg10 arg11 harg11 arg12 harg12 hc0 x0 x1 x2 x3 x4 x5 xt0)]
  unfold kernelRun0_A
  dsimp only
  sl_unfold_words
  rw [View.canon_unit_zero zeros3]
  simp only [View.readAt_eq_ld, harg3.read_unread, harg4.read_unread, harg5.read_unread, harg6.read_unread, harg7.read_unread, harg8.read_unread, View.ld_unit_zero (S := S1x1024x1024) zeros3, View.ld_unit_zero (S := S1x256x1024) zeros3, View.ld_unit_zero (S := S1024x1024) zeros2, View.readCov_unit_zero (S := S1024x1024) _ zeros2]
  rfl

/-- The attention weights a batch's first point leaves. -/
theorem weights_first (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1024x1024 .bf16) (harg11 : arg11.IsWhole) (arg12 : Memref sig .tc .vmem S1024x1024 .bf16) (harg12 : arg12.IsWhole) (hc0 : cond0_0 i)
    (x0 : Vec F S1x256x1024 .f32) (x1 : Vec F S1x1024x1024 .f32) (x2 : Vec F S1024x1024 .bf16) (x3 : Vec F S1024x1024 .bf16) (x4 : Vec F S1024x1024 .bf16) (x5 : Vec F S1024x1024 .bf16) (xt0 : TbBuf0 (F := F) c tbM0_0) :
    out0_A_7 c i arg3 harg3 arg4 harg4 arg5 harg5 arg6 harg6 arg7 harg7 arg8 harg8 arg9 harg9 arg10 harg10 arg11 harg11 arg12 harg12 hc0 x0 x1 x2 x3 x4 x5 xt0 = k0_pay3 (F := F) (wordAt c i xt0) (k0_pay12 (F := F) x0 x2 x3 (k0_pay5 (F := F) x1) (k0_pay6 (F := F) x1)) (k0_pay13 (F := F) x0 x2 x3 (k0_pay5 (F := F) x1)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 x0 x1 x2 x3 x4 x5 xt0)]
  unfold kernelRun0_A
  dsimp only
  sl_unfold_words
  rw [View.canon_unit_zero zeros3]
  simp only [View.readAt_eq_ld, harg3.read_unread, harg4.read_unread, harg5.read_unread, harg6.read_unread, harg7.read_unread, harg8.read_unread, View.ld_unit_zero (S := S1x1024x1024) zeros3, View.ld_unit_zero (S := S1x256x1024) zeros3, View.ld_unit_zero (S := S1024x1024) zeros2, View.readCov_unit_zero (S := S1024x1024) _ zeros2]
  rfl

/-- The hidden states a batch's second point leaves: the same payload over what the scratch buffers hold, `xs0`, `xs1`. -/
theorem hidden_second (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1024x1024 .bf16) (harg11 : arg11.IsWhole) (arg12 : Memref sig .tc .vmem S1024x1024 .bf16) (harg12 : arg12.IsWhole) (hc0 : ¬cond0_0 i)
    (x0 : Vec F S1x256x1024 .f32) (x1 : Vec F S1x1024x1024 .f32) (x2 : Vec F S1024x1024 .bf16) (x3 : Vec F S1024x1024 .bf16) (x4 : Vec F S1024x1024 .bf16) (x5 : Vec F S1024x1024 .bf16) (xt0 : TbBuf0 (F := F) c tbM0_0) (xs0 : Vec F S1024x1024 .bf16) (xs1 : Vec F S1024x1024 .bf16) :
    out0_B_6 c i arg3 harg3 arg4 harg4 arg5 harg5 arg6 harg6 arg7 harg7 arg8 harg8 arg9 harg9 arg10 harg10 arg11 harg11 arg12 harg12 hc0 x0 x1 x2 x3 x4 x5 xt0 xs0 xs1 = k0_pay2 (F := F) (wordAt c i xt0) (k0_pay8 (F := F) x4) (k0_pay9 (F := F) x5) (k0_pay10 (F := F) x0) xs0 (k0_pay12 (F := F) x0 x2 x3 xs0 xs1) (k0_pay13 (F := F) x0 x2 x3 xs0) := by
  unfold out0_B_6
  rw [View.read_writes_eq_canon _ _ _ (cover0_B_6 c i arg3 harg3 arg4 harg4 arg5 harg5 arg6 harg6 arg7 harg7 arg8 harg8 arg9 harg9 arg10 harg10 arg11 harg11 arg12 harg12 hc0 x0 x1 x2 x3 x4 x5 xt0 xs0 xs1)]
  unfold kernelRun0_B
  dsimp only
  try sl_unfold_words
  rw [View.canon_unit_zero zeros3]
  simp only [View.readAt_eq_ld, harg3.read_unread, harg4.read_unread, harg5.read_unread, harg6.read_unread, harg7.read_unread, harg8.read_unread, harg11.read_unread, harg12.read_unread, View.ld_unit_zero (S := S1x1024x1024) zeros3, View.ld_unit_zero (S := S1x256x1024) zeros3, View.ld_unit_zero (S := S1024x1024) zeros2]
  rfl

/-- The attention weights a batch's second point leaves. -/
theorem weights_second (c : Dev nD) (i : grid0.Coords) (arg3 : Memref sig .tc .vmem S1x256x1024 .f32) (harg3 : arg3.IsWhole) (arg4 : Memref sig .tc .vmem S1x1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .bf16) (harg8 : arg8.IsWhole) (arg9 : Memref sig .tc .vmem S1x256x1024 .f32) (harg9 : arg9.IsWhole) (arg10 : Memref sig .tc .vmem S1x256x1024 .f32) (harg10 : arg10.IsWhole) (arg11 : Memref sig .tc .vmem S1024x1024 .bf16) (harg11 : arg11.IsWhole) (arg12 : Memref sig .tc .vmem S1024x1024 .bf16) (harg12 : arg12.IsWhole) (hc0 : ¬cond0_0 i)
    (x0 : Vec F S1x256x1024 .f32) (x1 : Vec F S1x1024x1024 .f32) (x2 : Vec F S1024x1024 .bf16) (x3 : Vec F S1024x1024 .bf16) (x4 : Vec F S1024x1024 .bf16) (x5 : Vec F S1024x1024 .bf16) (xt0 : TbBuf0 (F := F) c tbM0_0) (xs0 : Vec F S1024x1024 .bf16) (xs1 : Vec F S1024x1024 .bf16) :
    out0_B_7 c i arg3 harg3 arg4 harg4 arg5 harg5 arg6 harg6 arg7 harg7 arg8 harg8 arg9 harg9 arg10 harg10 arg11 harg11 arg12 harg12 hc0 x0 x1 x2 x3 x4 x5 xt0 xs0 xs1 = k0_pay3 (F := F) (wordAt c i xt0) (k0_pay12 (F := F) x0 x2 x3 xs0 xs1) (k0_pay13 (F := F) x0 x2 x3 xs0) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 x0 x1 x2 x3 x4 x5 xt0 xs0 xs1)]
  unfold kernelRun0_B
  dsimp only
  try sl_unfold_words
  rw [View.canon_unit_zero zeros3]
  simp only [View.readAt_eq_ld, harg3.read_unread, harg4.read_unread, harg5.read_unread, harg6.read_unread, harg7.read_unread, harg8.read_unread, harg11.read_unread, harg12.read_unread, View.ld_unit_zero (S := S1x1024x1024) zeros3, View.ld_unit_zero (S := S1x256x1024) zeros3, View.ld_unit_zero (S := S1024x1024) zeros2]
  rfl

theorem coord0_lt (i : grid0.Coords) : (i 0).val < 16 := (i 0).isLt

/-- The loaded word is the lengths' entry at the first grid coordinate: that coordinate is below 16, so its 32-bit
    word read back as an offset is the coordinate itself. -/
theorem wordAt_eq (c : Dev nD) (i : grid0.Coords) (xt0 : TbBuf0 (F := F) c tbM0_0) :
    wordAt c i xt0 = (xt0 : S16.Idx → Elt F .i32) (ix1 (⟨(i 0).val, coord0_lt i⟩ : Fin 16)) := by
  unfold wordAt
  show (xt0 : S16.Idx → Elt F .i32) _ = _
  congr 1
  funext d
  match d with
  | ⟨0, _⟩ =>
    apply Fin.ext
    show k0_off1 i 0 + 1 * 0 = (i 0).val
    have h : ∀ a : Fin 16, (Scalar.indexCast (BitVec.ofNat 32 a.val)).toNat = a.val := by decide
    exact (Nat.add_zero _).trans (h ⟨(i 0).val, coord0_lt i⟩)

/-- The weights' payload respects equal length words and equal scratch contents. -/
theorem pay3_congr (w w' : Elt F .i32) (x0 : Vec F S1x256x1024 .f32) (x2 x3 s0 s0' s1 s1' : Vec F S1024x1024 .bf16)
    (hw : w = w') (h0 : s0 = s0') (h1 : s1 = s1') :
    k0_pay3 (F := F) w (k0_pay12 (F := F) x0 x2 x3 s0 s1) (k0_pay13 (F := F) x0 x2 x3 s0)
      = k0_pay3 (F := F) w' (k0_pay12 (F := F) x0 x2 x3 s0' s1') (k0_pay13 (F := F) x0 x2 x3 s0') := by
  subst hw h0 h1; rfl

/-- So does the hidden states' payload. -/
theorem pay2_congr (w w' : Elt F .i32) (x0 : Vec F S1x256x1024 .f32) (x2 x3 x4 x5 s0 s0' s1 s1' : Vec F S1024x1024 .bf16)
    (hw : w = w') (h0 : s0 = s0') (h1 : s1 = s1') :
    k0_pay2 (F := F) w (k0_pay8 (F := F) x4) (k0_pay9 (F := F) x5) (k0_pay10 (F := F) x0) s0 (k0_pay12 (F := F) x0 x2 x3 s0 s1) (k0_pay13 (F := F) x0 x2 x3 s0)
      = k0_pay2 (F := F) w' (k0_pay8 (F := F) x4) (k0_pay9 (F := F) x5) (k0_pay10 (F := F) x0) s0' (k0_pay12 (F := F) x0 x2 x3 s0' s1') (k0_pay13 (F := F) x0 x2 x3 s0') := by
  subst hw h0 h1; rfl

/-! ## The grid: point `n` is tile `n % 2` of batch `n / 2` -/

variable (m : (ℓ : Loc nD τ sig) → Buf (Elt F) ℓ)

/-- The blocks a point is handed, each at its literal type. -/
abbrev qblk (hO : Ok m) (c : Dev nD) (t : Fin (cfgM m hO).N) : Vec F S1x256x1024 .f32 := iblk m hO c 0 t
abbrev mblk (hO : Ok m) (c : Dev nD) (t : Fin (cfgM m hO).N) : Vec F S1x1024x1024 .f32 := iblk m hO c 1 t
abbrev wiHi (hO : Ok m) (c : Dev nD) (t : Fin (cfgM m hO).N) : Vec F S1024x1024 .bf16 := iblk m hO c 2 t
abbrev wiLo (hO : Ok m) (c : Dev nD) (t : Fin (cfgM m hO).N) : Vec F S1024x1024 .bf16 := iblk m hO c 3 t
abbrev woC (hO : Ok m) (c : Dev nD) (t : Fin (cfgM m hO).N) : Vec F S1024x1024 .bf16 := iblk m hO c 4 t
abbrev woQ (hO : Ok m) (c : Dev nD) (t : Fin (cfgM m hO).N) : Vec F S1024x1024 .bf16 := iblk m hO c 5 t

/-- The batch of point `n`: the grid runs the two target tiles of a batch one after the other. -/
def batchOf (n : ℕ) : Fin 16 := ⟨n / 2 % 16, Nat.mod_lt _ (by decide)⟩

/-- The length word the body loads at point `t`: the batch's entry of the lengths as the region finds them. -/
def lenAt (hO : Ok m) (c : Dev nD) (t : Fin (cfgM m hO).N) : Elt F .i32 :=
  (V m c main_arg2 : S16.Idx → Elt F .i32) (ix1 (batchOf t.val))

/-- The grid's first coordinate at point `t` is the batch `t / 2`. -/
theorem coord0_eq : ∀ t : Fin grid0.N, (grid0.coords t 0).val = t.val / 2 % 16 := by decide +kernel

/-- So the word the body loads at point `t` is the batch's length (there is one device, whose lengths the table holds). -/
theorem word_at (hO : Ok m) (c : Dev nD) (t : Fin (cfgM m hO).N) :
    wordAt c (grid0.coords t) (tbl m 0) = lenAt m hO c t := by
  refine (wordAt_eq c (grid0.coords t) (tbl m 0)).trans ?_
  unfold lenAt
  obtain rfl : c = 0 := Subsingleton.elim _ _
  show (V m 0 main_arg2 : S16.Idx → Elt F .i32) _ = (V m 0 main_arg2 : S16.Idx → Elt F .i32) _
  exact congrArg _ (congrArg ix1 (Fin.ext (coord0_eq t)))

/-- The memory window's block index at point `t`: the batch, and the whole of the two other axes. -/
theorem memIdx_eq : ∀ t : Fin grid0.N, cc0_transform_1 (grid0.coords t) = ![t.val / 2, 0, 0] := by decide +kernel

/-- It reads only the batch coordinate, so it stands still between the two points of a batch. -/
theorem memIdx_pred (t : Fin grid0.N) (h : ¬ t.val % 2 = 0) :
    cc0_transform_1 (grid0.coords ⟨t.val - 1, lt_of_le_of_lt (Nat.sub_le _ _) t.isLt⟩) = cc0_transform_1 (grid0.coords t) := by
  refine (memIdx_eq _).trans ((memIdx_eq t).trans ?_).symm
  have e : t.val / 2 = (t.val - 1) / 2 := by omega
  exact congrArg (fun n : ℕ => ![n, 0, 0]) e

/-- Hence a batch's second point is handed the memory block its first point was: both read the memory array at
    block index × block size + the coordinate inside the block, with the same block index. -/
theorem mblk_pred (hO : Ok m) (c : Dev nD) (t : Fin (cfgM m hO).N) (h : ¬ t.val % 2 = 0) :
    mblk m hO c ⟨t.val - 1, lt_of_le_of_lt (Nat.sub_le _ _) t.isLt⟩ = mblk m hO c t := by
  funext j
  show V m c main_arg1 ((((cfgM m hO).win 1).blk ⟨t.val - 1, lt_of_le_of_lt (Nat.sub_le _ _) t.isLt⟩).view.emb j)
    = V m c main_arg1 ((((cfgM m hO).win 1).blk t).view.emb j)
  refine congrArg (V m c main_arg1) (funext fun a => Fin.ext ?_)
  exact congrArg (fun n : ℕ => n * S1x1024x1024.size a + 1 * (j a).val) (congrFun (memIdx_pred t h) a)

/-! ## The scratch buffers between the two points of a batch -/

/-- After a batch's first point the first scratch buffer holds the narrowed memory block, -/
theorem scr0_even (hO : Ok m) (c : Dev nD) (t : Fin (cfgM m hO).N) (h : t.val % 2 = 0) :
    (outsAt0 m hO c t.val t.isLt).2.2.1 = k0_pay5 (F := F) (mblk m hO c t) := by
  rw [outsAt0_A m hO c t h]
  dsimp only
  exact scratch0_first (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h) (iblk m hO c 0 t) (iblk m hO c 1 t) (iblk m hO c 2 t) (iblk m hO c 3 t) (iblk m hO c 4 t) (iblk m hO c 5 t) (tbl m 0)

/-- and the second the residual of that narrowing. -/
theorem scr1_even (hO : Ok m) (c : Dev nD) (t : Fin (cfgM m hO).N) (h : t.val % 2 = 0) :
    (outsAt0 m hO c t.val t.isLt).2.2.2 = k0_pay6 (F := F) (mblk m hO c t) := by
  rw [outsAt0_A m hO c t h]
  dsimp only
  exact scratch1_first (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h) (iblk m hO c 0 t) (iblk m hO c 1 t) (iblk m hO c 2 t) (iblk m hO c 3 t) (iblk m hO c 4 t) (iblk m hO c 5 t) (tbl m 0)

/-- A batch's second point finds in the scratch buffers what the first left: the copies of the batch's memory block,
    which is the block the second point is handed too. -/
theorem scr0_prev (hO : Ok m) (c : Dev nD) (t : Fin (cfgM m hO).N) (h : ¬ t.val % 2 = 0) :
    (outsAt0 m hO c (t.val - 1) (Nat.lt_of_le_of_lt (Nat.sub_le _ _) t.isLt)).2.2.1 = k0_pay5 (F := F) (mblk m hO c t) := by
  have h' : (t.val - 1) % 2 = 0 := by omega
  exact (scr0_even m hO c ⟨t.val - 1, lt_of_le_of_lt (Nat.sub_le _ _) t.isLt⟩ h').trans
    (congrArg (k0_pay5 (F := F)) (mblk_pred m hO c t h))

theorem scr1_prev (hO : Ok m) (c : Dev nD) (t : Fin (cfgM m hO).N) (h : ¬ t.val % 2 = 0) :
    (outsAt0 m hO c (t.val - 1) (Nat.lt_of_le_of_lt (Nat.sub_le _ _) t.isLt)).2.2.2 = k0_pay6 (F := F) (mblk m hO c t) := by
  have h' : (t.val - 1) % 2 = 0 := by omega
  exact (scr1_even m hO c ⟨t.val - 1, lt_of_le_of_lt (Nat.sub_le _ _) t.isLt⟩ h').trans
    (congrArg (k0_pay6 (F := F)) (mblk_pred m hO c t h))

/-! ## The two output blocks after every point -/

/-- The hidden-state block after point `t`. -/
theorem outH_at (hO : Ok m) (c : Dev nD) (t : Fin (cfgM m hO).N) :
    (outsAt0 m hO c t.val t.isLt).1
      = Blk.blkH (F := F) (lenAt m hO c t) (qblk m hO c t) (mblk m hO c t) (wiHi m hO c t) (wiLo m hO c t) (woC m hO c t) (woQ m hO c t) := by
  unfold Blk.blkH
  by_cases h : t.val % 2 = 0
  · rw [outsAt0_A m hO c t h]
    dsimp only
    refine (hidden_first (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h) (iblk m hO c 0 t) (iblk m hO c 1 t) (iblk m hO c 2 t) (iblk m hO c 3 t) (iblk m hO c 4 t) (iblk m hO c 5 t) (tbl m 0)).trans ?_
    exact pay2_congr (F := F) (wordAt c (grid0.coords t) (tbl m 0)) (lenAt m hO c t) (qblk m hO c t) (wiHi m hO c t) (wiLo m hO c t) (woC m hO c t) (woQ m hO c t)
      (k0_pay5 (F := F) (mblk m hO c t)) (k0_pay5 (F := F) (mblk m hO c t)) (k0_pay6 (F := F) (mblk m hO c t)) (k0_pay6 (F := F) (mblk m hO c t))
      (word_at m hO c t) rfl rfl
  · rw [outsAt0_B m hO c t h]
    dsimp only
    refine (hidden_second (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h' => h ((hcond0_0 t).mp h')) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2).trans ?_
    exact pay2_congr (F := F) (wordAt c (grid0.coords t) (tbl m 0)) (lenAt m hO c t) (qblk m hO c t) (wiHi m hO c t) (wiLo m hO c t) (woC m hO c t) (woQ m hO c t)
      (outsAt0 m hO c (t.val - 1) (Nat.lt_of_le_of_lt (Nat.sub_le _ _) t.isLt)).2.2.1 (k0_pay5 (F := F) (mblk m hO c t)) (outsAt0 m hO c (t.val - 1) (Nat.lt_of_le_of_lt (Nat.sub_le _ _) t.isLt)).2.2.2 (k0_pay6 (F := F) (mblk m hO c t))
      (word_at m hO c t) (scr0_prev m hO c t h) (scr1_prev m hO c t h)

/-- The attention-weights block after point `t`. -/
theorem outA_at (hO : Ok m) (c : Dev nD) (t : Fin (cfgM m hO).N) :
    (outsAt0 m hO c t.val t.isLt).2.1
      = Blk.blkA (F := F) (lenAt m hO c t) (qblk m hO c t) (mblk m hO c t) (wiHi m hO c t) (wiLo m hO c t) := by
  unfold Blk.blkA
  by_cases h : t.val % 2 = 0
  · rw [outsAt0_A m hO c t h]
    dsimp only
    refine (weights_first (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) ((hcond0_0 t).mpr h) (iblk m hO c 0 t) (iblk m hO c 1 t) (iblk m hO c 2 t) (iblk m hO c 3 t) (iblk m hO c 4 t) (iblk m hO c 5 t) (tbl m 0)).trans ?_
    exact pay3_congr (F := F) (wordAt c (grid0.coords t) (tbl m 0)) (lenAt m hO c t) (qblk m hO c t) (wiHi m hO c t) (wiLo m hO c t)
      (k0_pay5 (F := F) (mblk m hO c t)) (k0_pay5 (F := F) (mblk m hO c t)) (k0_pay6 (F := F) (mblk m hO c t)) (k0_pay6 (F := F) (mblk m hO c t))
      (word_at m hO c t) rfl rfl
  · rw [outsAt0_B m hO c t h]
    dsimp only
    refine (weights_second (F := F) c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) scM0_1 (Memref.isWhole_whole _) (fun h' => h ((hcond0_0 t).mp h')) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)).2.2.1 (outsAt0 m hO c (t.val - 1) (Nat.lt_of_le_of_lt (Nat.sub_le _ _) t.isLt)).2.2.2).trans ?_
    exact pay3_congr (F := F) (wordAt c (grid0.coords t) (tbl m 0)) (lenAt m hO c t) (qblk m hO c t) (wiHi m hO c t) (wiLo m hO c t)
      (outsAt0 m hO c (t.val - 1) (Nat.lt_of_le_of_lt (Nat.sub_le _ _) t.isLt)).2.2.1 (k0_pay5 (F := F) (mblk m hO c t)) (outsAt0 m hO c (t.val - 1) (Nat.lt_of_le_of_lt (Nat.sub_le _ _) t.isLt)).2.2.2 (k0_pay6 (F := F) (mblk m hO c t))
      (word_at m hO c t) (scr0_prev m hO c t h) (scr1_prev m hO c t h)

end Cert.KernelIdeal.Pieces

end
-- ==== Proof.BlockData.lean ====
/-
  The blocks a point is handed, entry by entry, as entries of the five arguments: the query block of point
  `(b, tile)` is rows `256·tile … 256·tile + 255` of batch `b`; the memory block is batch `b`'s matrix; the
  weight blocks are whole arrays the host lines before the region made from the two weight arguments — the
  input projection narrowed, the residual of that narrowing (zero on real numbers), and the two column halves
  of the output projection.
-/
import proofs.«404834_j81260781241005_3_alg».proof.Proof.Pieces
import proofs.«404834_j81260781241005_3_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

set_option maxRecDepth 16384

namespace Cert.KernelIdeal.KValue

open Idealize.ShloMosaic Idealize.ShloMosaic.TcCoe Idealize.ShloMosaic.ValueIdx Idealize.SL.Sem
open Cert.KernelIdeal Cert.KernelIdeal.Gen Cert.KernelIdeal.Pieces Cert.Attn

variable (m : (ℓ : Loc nD τ sig) → Buf (Elt Ideal) ℓ)

/-- The five arguments at launch, at their literal types. -/
abbrev A0 (c : Dev nD) : S16x512x1024.Idx → EReal := m ((c.tc : Thread nD τ).loc main_arg0)
abbrev A1 (c : Dev nD) : S16x1024x1024.Idx → EReal := m ((c.tc : Thread nD τ).loc main_arg1)
abbrev A2 (c : Dev nD) : S16.Idx → BitVec 32 := m ((c.tc : Thread nD τ).loc main_arg2)
abbrev A3 (c : Dev nD) : S1024x1024.Idx → EReal := m ((c.tc : Thread nD τ).loc main_arg3)
abbrev A4 (c : Dev nD) : S1024x2048.Idx → EReal := m ((c.tc : Thread nD τ).loc main_arg4)

/-- The target row that row `r` of point `n`'s query block is: tile `n mod 2`, 256 rows a tile. -/
def rowOf (n : ℕ) (r : Fin 256) : Fin 512 := ⟨(n % 2 * 256 + r.val) % 512, Nat.mod_lt _ (by decide)⟩

/-! ## Where the blocks lie: the index maps over the grid -/

/-- The query window's block index at point `t` is `(t / 2, t mod 2, 0)`. -/
theorem idx_q (hO : Ok m) : ∀ t : Fin (cfgM m hO).N,
    ((cfgM m hO).win 0).index t (0 : Fin 3) = t.val / 2 ∧ ((cfgM m hO).win 0).index t (1 : Fin 3) = t.val % 2
      ∧ ((cfgM m hO).win 0).index t (2 : Fin 3) = 0 :=
  (by decide +kernel : ∀ t : Fin grid0.N, cc0_transform_0 (grid0.coords t) (0 : Fin 3) = t.val / 2
      ∧ cc0_transform_0 (grid0.coords t) (1 : Fin 3) = t.val % 2 ∧ cc0_transform_0 (grid0.coords t) (2 : Fin 3) = 0)

/-- The memory window's block index at point `t` is `(t / 2, 0, 0)`. -/
theorem idx_m (hO : Ok m) : ∀ t : Fin (cfgM m hO).N,
    ((cfgM m hO).win 1).index t (0 : Fin 3) = t.val / 2 ∧ ((cfgM m hO).win 1).index t (1 : Fin 3) = 0
      ∧ ((cfgM m hO).win 1).index t (2 : Fin 3) = 0 :=
  (by decide +kernel : ∀ t : Fin grid0.N, cc0_transform_1 (grid0.coords t) (0 : Fin 3) = t.val / 2
      ∧ cc0_transform_1 (grid0.coords t) (1 : Fin 3) = 0 ∧ cc0_transform_1 (grid0.coords t) (2 : Fin 3) = 0)

/-- The four weight windows sit at block `(0, 0)` at every point: each is its whole array. -/
theorem idx_w (hO : Ok m) : ∀ t : Fin (cfgM m hO).N,
    (((cfgM m hO).win 2).index t (0 : Fin 2) = 0 ∧ ((cfgM m hO).win 2).index t (1 : Fin 2) = 0)
      ∧ (((cfgM m hO).win 3).index t (0 : Fin 2) = 0 ∧ ((cfgM m hO).win 3).index t (1 : Fin 2) = 0)
      ∧ (((cfgM m hO).win 4).index t (0 : Fin 2) = 0 ∧ ((cfgM m hO).win 4).index t (1 : Fin 2) = 0)
      ∧ (((cfgM m hO).win 5).index t (0 : Fin 2) = 0 ∧ ((cfgM m hO).win 5).index t (1 : Fin 2) = 0) :=
  (by decide +kernel : ∀ t : Fin grid0.N,
    (cc0_transform_2 (grid0.coords t) (0 : Fin 2) = 0 ∧ cc0_transform_2 (grid0.coords t) (1 : Fin 2) = 0)
      ∧ (cc0_transform_3 (grid0.coords t) (0 : Fin 2) = 0 ∧ cc0_transform_3 (grid0.coords t) (1 : Fin 2) = 0)
      ∧ (cc0_transform_4 (grid0.coords t) (0 : Fin 2) = 0 ∧ cc0_transform_4 (grid0.coords t) (1 : Fin 2) = 0)
      ∧ (cc0_transform_5 (grid0.coords t) (0 : Fin 2) = 0 ∧ cc0_transform_5 (grid0.coords t) (1 : Fin 2) = 0))

/-! ## The two argument windows -/

theorem qblk_at (hO : Ok m) (c : Dev nD) (t : Fin (cfgM m hO).N) (r : Fin 256) (d : Fin 1024) :
    qblk m hO c t (ix3 (0 : Fin 1) r d) = A0 m c (ix3 (batchOf t.val) (rowOf t.val r) d) := by
  have hN : t.val < 32 := lt_of_lt_of_eq t.isLt (show (cfgM m hO).N = 32 from N_0)
  obtain ⟨e0, e1, e2⟩ := idx_q m hO t
  show (V m c main_arg0 : S16x512x1024.Idx → EReal) ((((cfgM m hO).win 0).blk t).view.emb (ix3 (0 : Fin 1) r d)) = _
  rw [V_main_arg0 m c]
  refine congrArg _ (funext fun a => Fin.ext ?_)
  match a with
  | ⟨0, _⟩ =>
    show ((cfgM m hO).win 0).index t (0 : Fin 3) * 1 + 1 * 0 = t.val / 2 % 16
    omega
  | ⟨1, _⟩ =>
    show ((cfgM m hO).win 0).index t (1 : Fin 3) * 256 + 1 * r.val = (t.val % 2 * 256 + r.val) % 512
    have hr : r.val < 256 := r.isLt
    omega
  | ⟨2, _⟩ =>
    show ((cfgM m hO).win 0).index t (2 : Fin 3) * 1024 + 1 * d.val = d.val
    omega

theorem mblk_at (hO : Ok m) (c : Dev nD) (t : Fin (cfgM m hO).N) (s d : Fin 1024) :
    mblk m hO c t (ix3 (0 : Fin 1) s d) = A1 m c (ix3 (batchOf t.val) s d) := by
  have hN : t.val < 32 := lt_of_lt_of_eq t.isLt (show (cfgM m hO).N = 32 from N_0)
  obtain ⟨e0, e1, e2⟩ := idx_m m hO t
  show (V m c main_arg1 : S16x1024x1024.Idx → EReal) ((((cfgM m hO).win 1).blk t).view.emb (ix3 (0 : Fin 1) s d)) = _
  rw [V_main_arg1 m c]
  refine congrArg _ (funext fun a => Fin.ext ?_)
  match a with
  | ⟨0, _⟩ =>
    show ((cfgM m hO).win 1).index t (0 : Fin 3) * 1 + 1 * 0 = t.val / 2 % 16
    omega
  | ⟨1, _⟩ =>
    show ((cfgM m hO).win 1).index t (1 : Fin 3) * 1024 + 1 * s.val = s.val
    omega
  | ⟨2, _⟩ =>
    show ((cfgM m hO).win 1).index t (2 : Fin 3) * 1024 + 1 * d.val = d.val
    omega

/-! ## What the host lines leave in the four weight arrays -/

/-- The narrowed input projection holds the input projection. -/
theorem v0_eq (c : Dev nD) :
    @Eq (FVec Ideal S1024x1024 .bf16) (V m c main_v0)
      (truncf .bf16 (A3 m c : FVec Ideal S1024x1024 .f32) bitsLt_bf16_f32) := by
  show StableHlo.after hostOps0 (fun b => m (c, b)) (Proc.devRef .tc main_v0) = _
  after_results

/-- The residual array holds the narrowed difference of the input projection and its narrowing widened back. -/
theorem v3_eq (c : Dev nD) :
    @Eq (FVec Ideal S1024x1024 .bf16) (V m c main_v3)
      (truncf .bf16 (subf (A3 m c : FVec Ideal S1024x1024 .f32)
        (extf .f32 (truncf .bf16 (A3 m c : FVec Ideal S1024x1024 .f32) bitsLt_bf16_f32 : FVec Ideal S1024x1024 .bf16) bitsLt_bf16_f32)
        : FVec Ideal S1024x1024 .f32) bitsLt_bf16_f32) := by
  show StableHlo.after hostOps0 (fun b => m (c, b)) (Proc.devRef .tc main_v3) = _
  after_results

/-- The context half holds the narrowed first 1024 columns of the output projection. -/
theorem v5_eq (c : Dev nD) :
    @Eq (FVec Ideal S1024x1024 .bf16) (V m c main_v5)
      (truncf .bf16 (extractStridedSlice S1024x1024 ![0, 0] (A4 m c : FVec Ideal S1024x2048 .f32)
        Facts₀.slices_S1024x2048_S1024x1024_0_0 : FVec Ideal S1024x1024 .f32) bitsLt_bf16_f32) := by
  show StableHlo.after hostOps0 (fun b => m (c, b)) (Proc.devRef .tc main_v5) = _
  after_results

/-- The query half holds the narrowed last 1024 columns of the output projection. -/
theorem v7_eq (c : Dev nD) :
    @Eq (FVec Ideal S1024x1024 .bf16) (V m c main_v7)
      (truncf .bf16 (extractStridedSlice S1024x1024 ![0, 1024] (A4 m c : FVec Ideal S1024x2048 .f32)
        Facts₀.slices_S1024x2048_S1024x1024_0_1024 : FVec Ideal S1024x1024 .f32) bitsLt_bf16_f32) := by
  show StableHlo.after hostOps0 (fun b => m (c, b)) (Proc.devRef .tc main_v7) = _
  after_results

/-! ## The four weight windows: each block is its whole array -/

theorem wiHi_at (hO : Ok m) (c : Dev nD) (t : Fin (cfgM m hO).N) (e d : Fin 1024) :
    wiHi m hO c t (ix2 e d) = A3 m c (ix2 e d) := by
  obtain ⟨⟨e0, e1⟩, -⟩ := idx_w m hO t
  show (V m c main_v0 : FVec Ideal S1024x1024 .bf16) ((((cfgM m hO).win 2).blk t).view.emb (ix2 e d)) = _
  rw [v0_eq m c]
  show (A3 m c) ((((cfgM m hO).win 2).blk t).view.emb (ix2 e d)) = _
  refine congrArg _ (funext fun a => Fin.ext ?_)
  match a with
  | ⟨0, _⟩ =>
    show ((cfgM m hO).win 2).index t (0 : Fin 2) * 1024 + 1 * e.val = e.val
    omega
  | ⟨1, _⟩ =>
    show ((cfgM m hO).win 2).index t (1 : Fin 2) * 1024 + 1 * d.val = d.val
    omega

/-- On real numbers the residual of the narrowing is a number less itself: zero. -/
theorem wiLo_at (hO : Ok m) (c : Dev nD) (t : Fin (cfgM m hO).N) (h3 : ∀ i, Fin' (A3 m c i)) (i : S1024x1024.Idx) :
    wiLo m hO c t i = 0 := by
  show (V m c main_v3 : FVec Ideal S1024x1024 .bf16) ((((cfgM m hO).win 3).blk t).view.emb i) = (0 : EReal)
  rw [v3_eq m c]
  show (A3 m c) ((((cfgM m hO).win 3).blk t).view.emb i) - (A3 m c) ((((cfgM m hO).win 3).blk t).view.emb i) = 0
  exact (h3 _).sub_self

theorem woC_at (hO : Ok m) (c : Dev nD) (t : Fin (cfgM m hO).N) (e k : Fin 1024) :
    woC m hO c t (ix2 e k) = A4 m c (ix2 e (Fin.castAdd 1024 k)) := by
  obtain ⟨-, -, ⟨e0, e1⟩, -⟩ := idx_w m hO t
  have hemb : (((cfgM m hO).win 4).blk t).view.emb (ix2 e k) = (ix2 e k : S1024x1024.Idx) := by
    refine funext fun a => Fin.ext ?_
    match a with
    | ⟨0, _⟩ =>
      show ((cfgM m hO).win 4).index t (0 : Fin 2) * 1024 + 1 * e.val = e.val
      omega
    | ⟨1, _⟩ =>
      show ((cfgM m hO).win 4).index t (1 : Fin 2) * 1024 + 1 * k.val = k.val
      omega
  show (V m c main_v5 : FVec Ideal S1024x1024 .bf16) ((((cfgM m hO).win 4).blk t).view.emb (ix2 e k)) = _
  rw [v5_eq m c, hemb]
  show extractStridedSlice S1024x1024 ![0, 0] (A4 m c) Facts₀.slices_S1024x2048_S1024x1024_0_0 (ix2 e k) = _
  exact slice2_axis1_apply 0 (A4 m c) Facts₀.slices_S1024x2048_S1024x1024_0_0 e k (Fin.castAdd 1024 k) (Nat.zero_add _).symm

theorem woQ_at (hO : Ok m) (c : Dev nD) (t : Fin (cfgM m hO).N) (e k : Fin 1024) :
    woQ m hO c t (ix2 e k) = A4 m c (ix2 e (Fin.natAdd 1024 k)) := by
  obtain ⟨-, -, -, ⟨e0, e1⟩⟩ := idx_w m hO t
  have hemb : (((cfgM m hO).win 5).blk t).view.emb (ix2 e k) = (ix2 e k : S1024x1024.Idx) := by
    refine funext fun a => Fin.ext ?_
    match a with
    | ⟨0, _⟩ =>
      show ((cfgM m hO).win 5).index t (0 : Fin 2) * 1024 + 1 * e.val = e.val
      omega
    | ⟨1, _⟩ =>
      show ((cfgM m hO).win 5).index t (1 : Fin 2) * 1024 + 1 * k.val = k.val
      omega
  show (V m c main_v7 : FVec Ideal S1024x1024 .bf16) ((((cfgM m hO).win 5).blk t).view.emb (ix2 e k)) = _
  rw [v7_eq m c, hemb]
  show extractStridedSlice S1024x1024 ![0, 1024] (A4 m c) Facts₀.slices_S1024x2048_S1024x1024_0_1024 (ix2 e k) = _
  exact slice2_axis1_apply 1024 (A4 m c) Facts₀.slices_S1024x2048_S1024x1024_0_1024 e k (Fin.natAdd 1024 k) rfl

/-! ## The length word -/

theorem lenAt_eq (hO : Ok m) (c : Dev nD) (t : Fin (cfgM m hO).N) :
    lenAt m hO c t = A2 m c (ix1 (batchOf t.val)) := by
  unfold lenAt
  rw [V_main_arg2 m c]

end Cert.KernelIdeal.KValue

end
-- ==== Proof.ScoreAt.lean ====
/-
  The scores of one query row, read off the body's three-pass products.
-/
import proofs.«404834_j81260781241005_3_alg».proof.Proof.Block
import proofs.«404834_j81260781241005_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Idealize.ShloMosaic Idealize.ShloMosaic.ValueIdx Cert.KernelIdeal Cert.KernelIdeal.Gen Cert.Attn

/-! ## A product contracting the second axis of both operands, read at an index -/

/-- The left operand is read at the output's row … -/
theorem lhs_mm11_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
/-- … and at the contraction's coordinate. -/
theorem lhs_mm11_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
/-- The right operand is read at the output's column … -/
theorem rhs_mm11_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
/-- … and at the contraction's coordinate. -/
theorem rhs_mm11_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- The product into the zero splat: `out[r, e] = ∑_k a[r, k] · b[e, k]`. -/
theorem mm11_at {φ₁ φ₂ : FTy} (a : FVec Ideal S256x1024 φ₁) (b : FVec Ideal S1024x1024 φ₂) (r : Fin 256) (e : Fin 1024) :
    matmul (F := Ideal) dot_S256x1024_S1024x1024_S256x1024_1_1_0_0_n_n none a b (constant (F := Ideal) S256x1024 .f32 0x00000000#32) (ix2 r e)
      = ∑ k : Fin 1024, a (ix2 r k) * b (ix2 e k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r e) ((contrEquiv1 dot_S256x1024_S1024x1024_S256x1024_1_1_0_0_n_n 1024 rfl rfl).symm k) = ix2 r k := funext fun c => Fin.ext (by
    match c with
    | ⟨0, _⟩ => exact lhs_mm11_0 _ _
    | ⟨1, _⟩ => exact (lhs_mm11_1 _ _).trans hk)
  have er : dot_S256x1024_S1024x1024_S256x1024_1_1_0_0_n_n.rhsIdx (ix2 r e) ((contrEquiv1 dot_S256x1024_S1024x1024_S256x1024_1_1_0_0_n_n 1024 rfl rfl).symm k) = ix2 e k := funext fun c => Fin.ext (by
    match c with
    | ⟨0, _⟩ => exact rhs_mm11_0 _ _
    | ⟨1, _⟩ => exact (rhs_mm11_1 _ _).trans hk)
  rw [el, er]

/-! ## The blocks with their unit axis dropped -/

/-- The memory block without its unit axis. -/
theorem pay4_at (x1 : Vec Ideal S1x1024x1024 .f32) (s d : Fin 1024) :
    k0_pay4 (F := Ideal) x1 (ix2 s d) = x1 (ix3 (0 : Fin 1) s d) := by
  unfold k0_pay4
  exact shapeCast_1ab_ab_apply _ _ _ _

/-- The query block without its unit axis. -/
theorem pay7_at (x0 : Vec Ideal S1x256x1024 .f32) (r : Fin 256) (k : Fin 1024) :
    k0_pay7 (F := Ideal) x0 (ix2 r k) = x0 (ix3 (0 : Fin 1) r k) := by
  unfold k0_pay7
  exact shapeCast_1ab_ab_apply _ _ _ _

/-- The kept copy of the memory block is the block. -/
theorem memHi_at (x1 : Vec Ideal S1x1024x1024 .f32) (s d : Fin 1024) :
    k0_pay5 (F := Ideal) x1 (ix2 s d) = x1 (ix3 (0 : Fin 1) s d) := by
  unfold k0_pay5
  simp only [shapeCast_self, truncf_apply]
  exact pay4_at x1 s d

/-- The residual copy vanishes where the memory block holds real numbers. -/
theorem memLo_at (x1 : Vec Ideal S1x1024x1024 .f32) (h1 : ∀ i, Fin' (x1 i)) (j : S1024x1024.Idx) :
    k0_pay6 (F := Ideal) x1 j = 0 := by
  obtain ⟨s, d, rfl⟩ : ∃ (s : Fin 1024) (d : Fin 1024), j = ix2 s d := ⟨j 0, j 1, eq_ix2 j⟩
  unfold k0_pay6
  simp only [shapeCast_self, truncf_apply, subf_apply]
  rw [pay4_at]
  exact (h1 _).sub_self

/-- The narrowed query block is the query block. -/
theorem qHi_at (x0 : Vec Ideal S1x256x1024 .f32) (r : Fin 256) (k : Fin 1024) :
    k0_pay10 (F := Ideal) x0 (ix2 r k) = x0 (ix3 (0 : Fin 1) r k) := by
  unfold k0_pay10
  simp only [truncf_apply]
  exact pay7_at x0 r k

/-- The recast weight halves are themselves. -/
theorem wc_at (x4 : Vec Ideal S1024x1024 .bf16) (j : S1024x1024.Idx) : k0_pay8 (F := Ideal) x4 j = x4 j := by
  unfold k0_pay8
  simp only [shapeCast_self]
theorem wq_at (x5 : Vec Ideal S1024x1024 .bf16) (j : S1024x1024.Idx) : k0_pay9 (F := Ideal) x5 j = x5 j := by
  unfold k0_pay9
  simp only [shapeCast_self]

/-! ## The projected query -/

/-- The projected query of row `r`: the second product has a zero operand and the third a zero residual, so the
    three passes leave `∑_k q_k · W[e, k]`. -/
theorem pay11_at (x0 : Vec Ideal S1x256x1024 .f32) (x2 x3 : Vec Ideal S1024x1024 .bf16)
    (h0 : ∀ i, Fin' (x0 i)) (h3 : ∀ i, x3 i = 0) (r : Fin 256) (e : Fin 1024) :
    k0_pay11 (F := Ideal) x0 x2 x3 (ix2 r e) = ∑ k : Fin 1024, x0 (ix3 (0 : Fin 1) r k) * x2 (ix2 e k) := by
  unfold k0_pay11
  simp only [addf_apply, mm11_at, shapeCast_self, truncf_apply, subf_apply, qHi_at, pay7_at]
  have hz : ∀ k : Fin 1024, x0 (ix3 (0 : Fin 1) r k) - x0 (ix3 (0 : Fin 1) r k) = 0 := fun k => (h0 _).sub_self
  simp only [hz, h3, mul_zero, zero_mul, Finset.sum_const_zero, add_zero]

/-- The projected query is a real number when the query and the projection are. -/
theorem pay11_fin (x0 : Vec Ideal S1x256x1024 .f32) (x2 x3 : Vec Ideal S1024x1024 .bf16)
    (h0 : ∀ i, Fin' (x0 i)) (h2 : ∀ i, Fin' (x2 i)) (h3 : ∀ i, x3 i = 0) (r : Fin 256) (e : Fin 1024) :
    Fin' (k0_pay11 (F := Ideal) x0 x2 x3 (ix2 r e)) := by
  rw [pay11_at x0 x2 x3 h0 h3 r e]
  exact Fin'.sum _ _ fun k _ => (h0 _).mul (h2 _)

/-! ## The scores -/

/-- Row `r`'s score against position `s`: the three passes of each product collapse to the product when the
    residual parts vanish, which they do on real numbers. -/
theorem score_at (x0 : Vec Ideal S1x256x1024 .f32) (x1 : Vec Ideal S1x1024x1024 .f32) (x2 x3 : Vec Ideal S1024x1024 .bf16)
    (h0 : ∀ i, Fin' (x0 i)) (h1 : ∀ i, Fin' (x1 i)) (h2 : ∀ i, Fin' (x2 i)) (h3 : ∀ i, x3 i = 0)
    (r : Fin 256) (s : Fin 1024) :
    k0_pay12 (F := Ideal) x0 x2 x3 (k0_pay5 (F := Ideal) x1) (k0_pay6 (F := Ideal) x1) (ix2 r s)
        + k0_pay13 (F := Ideal) x0 x2 x3 (k0_pay5 (F := Ideal) x1) (ix2 r s)
      = score (proj (fun d => x0 (ix3 (0 : Fin 1) r d)) (fun e d => x2 (ix2 e d))) (fun s' d => x1 (ix3 (0 : Fin 1) s' d)) s := by
  unfold k0_pay12 k0_pay13
  simp only [addf_apply, mm11_at, truncf_apply, subf_apply, memHi_at]
  have hz : ∀ k : Fin 1024, k0_pay11 (F := Ideal) x0 x2 x3 (ix2 r k) - k0_pay11 (F := Ideal) x0 x2 x3 (ix2 r k) = 0 :=
    fun k => (pay11_fin x0 x2 x3 h0 h2 h3 r k).sub_self
  simp only [hz, memLo_at x1 h1, mul_zero, zero_mul, Finset.sum_const_zero, add_zero]
  unfold score proj
  exact Finset.sum_congr rfl fun k _ => by rw [pay11_at x0 x2 x3 h0 h3 r k]

end Cert.KernelIdeal.Blk

end
-- ==== Proof.SoftAt.lean ====
/-
  The body's softmax, context and output projection read at an index, over any score block.
-/
import proofs.«404834_j81260781241005_3_alg».proof.Proof.Block
import proofs.«404834_j81260781241005_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Blk

open Idealize.ShloMosaic Idealize.ShloMosaic.ValueIdx Cert.KernelIdeal Cert.KernelIdeal.Gen Cert.Attn

/-! ## Two layout readings the softmax needs: a vector made a column, a column spread over the lanes -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row vector made a column and spread over the lanes reads, at `(r, s)`, the vector at `r`. -/
theorem col_at {α : Type} (v : S256.Idx → α) (r : Fin 256) (s : Fin 1024) :
    broadcastTo S256x1024 (shapeCast S256x1 v shapeCasts_S256_S256x1) broadcasts_S256x1_S256x1024 (ix2 r s) = v (ix1 r) :=
  (broadcastTo_a1_ab_apply _ _ r s).trans (shapeCast_a_a1_apply v _ r 0)

/-! ## The mask, the row maximum and the row sum -/

/-- The masked score block: inside the length the sum of the two score passes, outside it the named `−∞`. -/
def msk (w : BitVec 32) (v32 v33 : FVec Ideal S256x1024 .f32) : FVec Ideal S256x1024 .f32 :=
  select (cmpi .slt (iota .tc S256x1024 32 [1] iota_S256x1024_d1_w32) (broadcast S256x1024 w)) (addf v32 v33)
    (broadcast S256x1024 (Named.named (F := Ideal) κ "neg_big" (φ := .f32) 0xFF333332#32))

/-- The named mask value is `−∞` on the extended reals, by the certificate's table. -/
theorem neg_big : Named.named (F := Ideal) κ "neg_big" (φ := .f32) 0xFF333332#32 = (⊥ : EReal) :=
  IdealRules.named_const.ideal_named_scalar _ _ _ _ rfl

/-- The masked block at `(r, s)` is the masked row of the summed scores at `s`. -/
theorem msk_at (w : BitVec 32) (v32 v33 : FVec Ideal S256x1024 .f32) (r : Fin 256) (s : Fin 1024) :
    msk w v32 v33 (ix2 r s) = maskRow w (fun s' => v32 (ix2 r s') + v33 (ix2 r s')) s := by
  show Scalar.select (IntOp.cmpi .slt (iota .tc S256x1024 32 [1] iota_S256x1024_d1_w32 (ix2 r s)) w)
      (v32 (ix2 r s) + v33 (ix2 r s)) (Named.named (F := Ideal) κ "neg_big" (φ := .f32) 0xFF333332#32)
    = Scalar.select (IntOp.cmpi .slt (BitVec.ofNat 32 s.val) w) (v32 (ix2 r s) + v33 (ix2 r s)) ⊥
  rw [iota_single_apply, neg_big]

/-- The pattern the maximum starts from is `−∞`. -/
theorem ofBits_neg_inf : Ideal.ofBits .f32 0xFF800000#32 = (⊥ : EReal) := by simp [Ideal.ofBits, Ideal.ieee]

/-- Lane `k` inserted into the row index `r` is `(r, k)`. -/
theorem lift_row (r : Fin 256) (k : Fin 1024) : reduces_S256x1024_S256.lift (ix1 r) k = ix2 r k :=
  funext fun c => Fin.ext (match c with | ⟨0, _⟩ => rfl | ⟨1, _⟩ => rfl)

/-- The lane maximum of a block at row `r` is the row's maximum from `−∞`. -/
theorem max_at (m : FVec Ideal S256x1024 .f32) (r : Fin 256) :
    multiReduction (F := Ideal) .maximumf [1] S256 m 0xFF800000#32 reduces_S256x1024_S256 (.inl rfl) rfl (ix1 r)
      = rowMax (fun s => m (ix2 r s)) := by
  refine (Ideal.multiReduction_maximumf_single m 0xFF800000#32 reduces_S256x1024_S256 (.inl rfl) rfl (ix1 r)).trans ?_
  show (Finset.univ : Finset (Fin 1024)).fold max (Ideal.ofBits .f32 0xFF800000#32) (m ∘ reduces_S256x1024_S256.lift (ix1 r))
    = (Finset.univ : Finset (Fin 1024)).fold max ⊥ (fun s => m (ix2 r s))
  rw [ofBits_neg_inf]
  exact congrArg (fun f : Fin 1024 → EReal => (Finset.univ : Finset (Fin 1024)).fold max ⊥ f)
    (funext fun k => congrArg m (lift_row r k))

/-- The lane sum of a block at row `r` is the sum over the row. -/
theorem sum_at (m : FVec Ideal S256x1024 .f32) (r : Fin 256) :
    multiReduction (F := Ideal) .add [1] S256 m 0x00000000#32 reduces_S256x1024_S256 (.inl rfl) rfl (ix1 r)
      = ∑ s : Fin 1024, m (ix2 r s) := by
  refine (Ideal.multiReduction_add_single m 0x00000000#32 reduces_S256x1024_S256 (.inl rfl) rfl (ix1 r)).trans ?_
  show ∑ k : Fin 1024, m (reduces_S256x1024_S256.lift (ix1 r) k) = ∑ s : Fin 1024, m (ix2 r s)
  exact Finset.sum_congr rfl fun k _ => congrArg m (lift_row r k)

/-! ## The softmax of a block -/

/-- The body's softmax of a masked block: shift by the row maximum, exponentiate, divide by the row sum. -/
def smx (m : FVec Ideal S256x1024 .f32) : FVec Ideal S256x1024 .f32 :=
  divf
    (exp (subf m (broadcastTo S256x1024 (shapeCast S256x1
      (multiReduction (F := Ideal) .maximumf [1] S256 m 0xFF800000#32 reduces_S256x1024_S256 (.inl rfl) rfl)
      shapeCasts_S256_S256x1) broadcasts_S256x1_S256x1024)))
    (broadcastTo S256x1024 (shapeCast S256x1
      (multiReduction (F := Ideal) .add [1] S256
        (exp (subf m (broadcastTo S256x1024 (shapeCast S256x1
          (multiReduction (F := Ideal) .maximumf [1] S256 m 0xFF800000#32 reduces_S256x1024_S256 (.inl rfl) rfl)
          shapeCasts_S256_S256x1) broadcasts_S256x1_S256x1024)))
        0x00000000#32 reduces_S256x1024_S256 (.inl rfl) rfl)
      shapeCasts_S256_S256x1) broadcasts_S256x1_S256x1024)

/-- The weights payload is the softmax of the masked block. -/
theorem pay1_eq (w : BitVec 32) (v32 v33 : FVec Ideal S256x1024 .f32) :
    k0_pay1 (F := Ideal) w v32 v33 = smx (msk w v32 v33) := rfl

/-- The shifted exponential at `(r, s)`. -/
theorem shexp_at (m : FVec Ideal S256x1024 .f32) (r : Fin 256) (s : Fin 1024) :
    exp (subf m (broadcastTo S256x1024 (shapeCast S256x1
      (multiReduction (F := Ideal) .maximumf [1] S256 m 0xFF800000#32 reduces_S256x1024_S256 (.inl rfl) rfl)
      shapeCasts_S256_S256x1) broadcasts_S256x1_S256x1024)) (ix2 r s)
      = Ideal.exp (m (ix2 r s) - rowMax (fun s' => m (ix2 r s'))) := by
  show Ideal.exp (m (ix2 r s) - broadcastTo S256x1024 (shapeCast S256x1
      (multiReduction (F := Ideal) .maximumf [1] S256 m 0xFF800000#32 reduces_S256x1024_S256 (.inl rfl) rfl)
      shapeCasts_S256_S256x1) broadcasts_S256x1_S256x1024 (ix2 r s)) = _
  rw [col_at, max_at]

/-- The softmax of a block at `(r, s)` is the softmax of row `r` at `s`. -/
theorem smx_at (m : FVec Ideal S256x1024 .f32) (r : Fin 256) (s : Fin 1024) :
    smx m (ix2 r s) = soft (fun s' => m (ix2 r s')) s := by
  show Ideal.div
      (exp (subf m (broadcastTo S256x1024 (shapeCast S256x1
        (multiReduction (F := Ideal) .maximumf [1] S256 m 0xFF800000#32 reduces_S256x1024_S256 (.inl rfl) rfl)
        shapeCasts_S256_S256x1) broadcasts_S256x1_S256x1024)) (ix2 r s))
      (broadcastTo S256x1024 (shapeCast S256x1
        (multiReduction (F := Ideal) .add [1] S256
          (exp (subf m (broadcastTo S256x1024 (shapeCast S256x1
            (multiReduction (F := Ideal) .maximumf [1] S256 m 0xFF800000#32 reduces_S256x1024_S256 (.inl rfl) rfl)
            shapeCasts_S256_S256x1) broadcasts_S256x1_S256x1024)))
          0x00000000#32 reduces_S256x1024_S256 (.inl rfl) rfl)
        shapeCasts_S256_S256x1) broadcasts_S256x1_S256x1024 (ix2 r s))
    = Ideal.div (Ideal.exp (m (ix2 r s) - rowMax (fun s' => m (ix2 r s'))))
        (∑ s' : Fin 1024, Ideal.exp (m (ix2 r s') - rowMax (fun s'' => m (ix2 r s''))))
  rw [col_at, sum_at, shexp_at]
  exact congrArg _ (Finset.sum_congr rfl fun k _ => shexp_at m r k)

/-- Row `r`'s attention weights: the softmax of the row's masked scores. -/
theorem attn_at (w : BitVec 32) (v32 v33 : FVec Ideal S256x1024 .f32) (r : Fin 256) (s : Fin 1024) :
    k0_pay1 (F := Ideal) w v32 v33 (ix2 r s)
      = soft (maskRow w (fun s' => v32 (ix2 r s') + v33 (ix2 r s'))) s := by
  rw [pay1_eq, smx_at]
  exact congrArg (fun x => soft x s) (funext fun s' => msk_at w v32 v33 r s')

/-- The stored block of weights is the weights with a leading unit axis. -/
theorem attnBlk_at (w : BitVec 32) (v32 v33 : FVec Ideal S256x1024 .f32) (r : Fin 256) (s : Fin 1024) :
    k0_pay3 (F := Ideal) w v32 v33 (ix3 (0 : Fin 1) r s) = k0_pay1 (F := Ideal) w v32 v33 (ix2 r s) :=
  shapeCast_ab_1ab_apply (k0_pay1 (F := Ideal) w v32 v33) shapeCasts_S256x1024_S1x256x1024 0 r s

/-! ## The two products read at an index -/

theorem lhs11_0 (i : S256x1024.Idx) (q : dot_S256x1024_S1024x1024_S256x1024_1_1_0_0_n_n.contr.Idx) :
    (dot_S256x1024_S1024x1024_S256x1024_1_1_0_0_n_n.lhsIdx i q 0).val = (i 0).val := by
  unfold DotDims.lhsIdx
  rw [dif_neg (show ¬(0 : Fin S256x1024.rank) ∈ dot_S256x1024_S1024x1024_S256x1024_1_1_0_0_n_n.lhsBatch by decide), dif_pos (show (0 : Fin S256x1024.rank) ∈ dot_S256x1024_S1024x1024_S256x1024_1_1_0_0_n_n.lhsNonContracting by decide)]
  rfl
theorem lhs11_1 (i : S256x1024.Idx) (q : dot_S256x1024_S1024x1024_S256x1024_1_1_0_0_n_n.contr.Idx) :
    (dot_S256x1024_S1024x1024_S256x1024_1_1_0_0_n_n.lhsIdx i q 1).val = (q ⟨0, by decide⟩).val :=
  dot_S256x1024_S1024x1024_S256x1024_1_1_0_0_n_n.lhsIdx_val_of_single rfl i q
theorem rhs11_0 (i : S256x1024.Idx) (q : dot_S256x1024_S1024x1024_S256x1024_1_1_0_0_n_n.contr.Idx) :
    (dot_S256x1024_S1024x1024_S256x1024_1_1_0_0_n_n.rhsIdx i q 0).val = (i 1).val := by
  unfold DotDims.rhsIdx
  rw [dif_neg (show ¬(0 : Fin S1024x1024.rank) ∈ dot_S256x1024_S1024x1024_S256x1024_1_1_0_0_n_n.rhsBatch by decide), dif_pos (show (0 : Fin S1024x1024.rank) ∈ dot_S256x1024_S1024x1024_S256x1024_1_1_0_0_n_n.rhsNonContracting by decide)]
  rfl
theorem rhs11_1 (i : S256x1024.Idx) (q : dot_S256x1024_S1024x1024_S256x1024_1_1_0_0_n_n.contr.Idx) :
    (dot_S256x1024_S1024x1024_S256x1024_1_1_0_0_n_n.rhsIdx i q 1).val = (q ⟨0, by decide⟩).val :=
  dot_S256x1024_S1024x1024_S256x1024_1_1_0_0_n_n.rhsIdx_val_of_single rfl i q

/-- A product against a matrix's rows, into zero: `out[r, e] = ∑_k lhs[r, k] · rhs[e, k]`. -/
theorem mmRows_at {φ₁ φ₂ : FTy} (lhs : FVec Ideal S256x1024 φ₁) (rhs : FVec Ideal S1024x1024 φ₂) (r : Fin 256) (e : Fin 1024) :
    matmul (F := Ideal) dot_S256x1024_S1024x1024_S256x1024_1_1_0_0_n_n none lhs rhs (constant (F := Ideal) S256x1024 .f32 0x00000000#32) (ix2 r e)
      = ∑ k : Fin 1024, lhs (ix2 r k) * rhs (ix2 e k) := by
  simp only [matmul]
  rw [Ideal.matmul_constant_zero_apply, ← Equiv.sum_comp (contrEquiv1 dot_S256x1024_S1024x1024_S256x1024_1_1_0_0_n_n 1024 rfl rfl).symm]
  refine Finset.sum_congr rfl fun k _ => ?_
  have hk := contrEquiv1_symm_val dot_S256x1024_S1024x1024_S256x1024_1_1_0_0_n_n 1024 rfl rfl k
  have el : dot_S256x1024_S1024x1024_S256x1024_1_1_0_0_n_n.lhsIdx (ix2 r e) ((contrEquiv1 dot_S256x1024_S1024x1024_S256x1024_1_1_0_0_n_n 1024 rfl rfl).symm k) = ix2 r k := funext fun a => Fin.ext (by
    match a with
    | ⟨0, _⟩ => exact lhs11_0 _ _
    | ⟨1, _⟩ => exact (lhs11_1 _ _).trans hk)
  have er : dot_S256x1024_S1024x1024_S256x1024_1_1_0_0_n_n.rhsIdx (ix2 r e) ((contrEquiv1 dot_S256x1024_S1024x1024_S256x1024_1_1_0_0_n_n 1024 rfl rfl).symm k) = ix2 e k := funext fun a => Fin.ext (by
    match a with
    | ⟨0, _⟩ => exact rhs11_0 _ _
    | ⟨1, _⟩ => exact (rhs11_1 _ _).trans hk)
  rw [el, er]

theorem lhs10_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs10_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs10_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs10_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- A product against a matrix's columns, into zero: `out[r, d] = ∑_s lhs[r, s] · rhs[s, d]`. -/
theorem mm10_at {φ₁ φ₂ : FTy} (lhs : FVec Ideal S256x1024 φ₁) (rhs : FVec Ideal S1024x1024 φ₂) (r : Fin 256) (d : Fin 1024) :
    matmul (F := Ideal) dot_S256x1024_S1024x1024_S256x1024_1_0_0_1_n_n none lhs rhs (constant (F := Ideal) S256x1024 .f32 0x00000000#32) (ix2 r d)
      = ∑ s : Fin 1024, lhs (ix2 r s) * rhs (ix2 s d) := by
  simp only [matmul]
  rw [Ideal.matmul_constant_zero_apply, ← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r d) ((contrEquiv1 dot_S256x1024_S1024x1024_S256x1024_1_0_0_1_n_n 1024 rfl rfl).symm k) = ix2 r k := funext fun a => Fin.ext (by
    match a with
    | ⟨0, _⟩ => exact lhs10_0 _ _
    | ⟨1, _⟩ => exact (lhs10_1 _ _).trans hk)
  have er : dot_S256x1024_S1024x1024_S256x1024_1_0_0_1_n_n.rhsIdx (ix2 r d) ((contrEquiv1 dot_S256x1024_S1024x1024_S256x1024_1_0_0_1_n_n 1024 rfl rfl).symm k) = ix2 k d := funext fun a => Fin.ext (by
    match a with
    | ⟨0, _⟩ => exact (rhs10_0 _ _).trans hk
    | ⟨1, _⟩ => exact rhs10_1 _ _)
  rw [el, er]

/-! ## The context and the hidden state -/

/-- The context block of a block of weights: its product with the memory's narrowed copy. -/
def ctx (a : FVec Ideal S256x1024 .f32) (v28 : Vec Ideal S1024x1024 .bf16) : FVec Ideal S256x1024 .f32 :=
  matmul (F := Ideal) (φ₁ := .bf16) (φ₂ := .bf16) dot_S256x1024_S1024x1024_S256x1024_1_0_0_1_n_n none
    (truncf .bf16 a bitsLt_bf16_f32) v28 (constant (F := Ideal) S256x1024 .f32 0x00000000#32)

theorem ctx_at (a : FVec Ideal S256x1024 .f32) (v28 : Vec Ideal S1024x1024 .bf16) (r : Fin 256) (k : Fin 1024) :
    ctx a v28 (ix2 r k) = ∑ s : Fin 1024, a (ix2 r s) * v28 (ix2 s k) :=
  mm10_at (φ₁ := .bf16) (φ₂ := .bf16) (truncf .bf16 a bitsLt_bf16_f32) v28 r k

/-- The hidden block of a context block `c`: `tanh` of the context's two passes through `v12` plus the
    query's pass through `v14`. -/
def hid (v12 v14 : FVec Ideal S1024x1024 .bf16) (v15 : FVec Ideal S256x1024 .bf16) (c : FVec Ideal S256x1024 .f32) :
    FVec Ideal S256x1024 .f32 :=
  tanh (addf
    (addf
      (matmul (F := Ideal) dot_S256x1024_S1024x1024_S256x1024_1_1_0_0_n_n none (truncf .bf16 c bitsLt_bf16_f32) v12
        (constant (F := Ideal) S256x1024 .f32 0x00000000#32))
      (matmul (F := Ideal) dot_S256x1024_S1024x1024_S256x1024_1_1_0_0_n_n none (truncf .bf16 (subf c c) bitsLt_bf16_f32) v12
        (constant (F := Ideal) S256x1024 .f32 0x00000000#32)))
    (matmul (F := Ideal) dot_S256x1024_S1024x1024_S256x1024_1_1_0_0_n_n none v15 v14
      (constant (F := Ideal) S256x1024 .f32 0x00000000#32)))

theorem hidBlk_at (v12 v14 : FVec Ideal S1024x1024 .bf16) (v15 : FVec Ideal S256x1024 .bf16) (c : FVec Ideal S256x1024 .f32)
    (r : Fin 256) (e : Fin 1024) :
    hid v12 v14 v15 c (ix2 r e)
      = Ideal.tanh (((∑ k : Fin 1024, c (ix2 r k) * v12 (ix2 e k))
            + ∑ k : Fin 1024, (c (ix2 r k) - c (ix2 r k)) * v12 (ix2 e k))
          + ∑ k : Fin 1024, v15 (ix2 r k) * v14 (ix2 e k)) := by
  show Ideal.tanh ((matmul (F := Ideal) dot_S256x1024_S1024x1024_S256x1024_1_1_0_0_n_n none (truncf .bf16 c bitsLt_bf16_f32) v12
        (constant (F := Ideal) S256x1024 .f32 0x00000000#32) (ix2 r e)
      + matmul (F := Ideal) dot_S256x1024_S1024x1024_S256x1024_1_1_0_0_n_n none (truncf .bf16 (subf c c) bitsLt_bf16_f32) v12
        (constant (F := Ideal) S256x1024 .f32 0x00000000#32) (ix2 r e))
      + matmul (F := Ideal) dot_S256x1024_S1024x1024_S256x1024_1_1_0_0_n_n none v15 v14
        (constant (F := Ideal) S256x1024 .f32 0x00000000#32) (ix2 r e)) = _
  rw [mmRows_at, mmRows_at, mmRows_at]
  rfl

/-- The hidden-state payload is the hidden block of the context of the weights, with a leading unit axis. -/
theorem pay2_eq (w : BitVec 32) (v12 v14 : FVec Ideal S1024x1024 .bf16) (v15 : FVec Ideal S256x1024 .bf16)
    (v28 : Vec Ideal S1024x1024 .bf16) (v32 v33 : FVec Ideal S256x1024 .f32) :
    k0_pay2 (F := Ideal) w v12 v14 v15 v28 v32 v33
      = shapeCast S1x256x1024 (hid v12 v14 v15 (ctx (k0_pay1 (F := Ideal) w v32 v33) v28)) shapeCasts_S256x1024_S1x256x1024 := rfl

/-- Row `r`'s hidden state at `e`: `tanh` of the context's two passes through `v12` plus the query's pass through `v14`. -/
theorem hid_at (w : BitVec 32) (v12 v14 : FVec Ideal S1024x1024 .bf16) (v15 : FVec Ideal S256x1024 .bf16)
    (v28 : Vec Ideal S1024x1024 .bf16) (v32 v33 : FVec Ideal S256x1024 .f32) (r : Fin 256) (e : Fin 1024) :
    k0_pay2 (F := Ideal) w v12 v14 v15 v28 v32 v33 (ix3 (0 : Fin 1) r e)
      = Ideal.tanh (((∑ k : Fin 1024, (∑ s : Fin 1024, k0_pay1 (F := Ideal) w v32 v33 (ix2 r s) * v28 (ix2 s k)) * v12 (ix2 e k))
            + ∑ k : Fin 1024, ((∑ s : Fin 1024, k0_pay1 (F := Ideal) w v32 v33 (ix2 r s) * v28 (ix2 s k))
                - (∑ s : Fin 1024, k0_pay1 (F := Ideal) w v32 v33 (ix2 r s) * v28 (ix2 s k))) * v12 (ix2 e k))
          + ∑ k : Fin 1024, v15 (ix2 r k) * v14 (ix2 e k)) := by
  rw [pay2_eq]
  refine (shapeCast_ab_1ab_apply _ shapeCasts_S256x1024_S1x256x1024 0 r e).trans ?_
  rw [hidBlk_at]
  simp only [ctx_at]

end Cert.KernelIdeal.Blk

end
-- ==== Proof.SoftFacts.lean ====
/-
  The specification's intermediates are real numbers when its inputs are and position 0 is inside the length.
-/
import proofs.«404834_j81260781241005_3_alg».proof.Proof.Spec
import Mathlib.Data.EReal.Inv
import Mathlib.Analysis.SpecialFunctions.Exp

noncomputable section

namespace Cert.Attn

open Idealize.ShloMosaic

theorem proj_fin (q : Fin 1024 → EReal) (Wi : Fin 1024 → Fin 1024 → EReal) (hq : ∀ d, Fin' (q d)) (hW : ∀ e d, Fin' (Wi e d))
    (e : Fin 1024) : Fin' (proj q Wi e) :=
  Fin'.sum _ _ fun d _ => (hq d).mul (hW e d)

theorem score_fin (p : Fin 1024 → EReal) (M : Fin 1024 → Fin 1024 → EReal) (hp : ∀ d, Fin' (p d)) (hM : ∀ s d, Fin' (M s d))
    (s : Fin 1024) : Fin' (score p M s) :=
  Fin'.sum _ _ fun d _ => (hp d).mul (hM s d)

/-- Position 0 is inside any length that is at least one: `0 < len` on signed words. -/
theorem keep_zero (len : BitVec 32) (h : 1 ≤ len.toInt) : keep len 0 = 1#1 := by
  have hs : (BitVec.ofNat 32 (0 : Fin 1024).val).slt len = true := by
    rw [BitVec.slt]
    have : (BitVec.ofNat 32 (0 : Fin 1024).val).toInt = 0 := by decide
    rw [this]
    exact decide_eq_true (by omega)
  show BitVec.ofBool ((BitVec.ofNat 32 (0 : Fin 1024).val).slt len) = 1#1
  rw [hs]; rfl

/-- A masked row has no `+∞` when the scores are real numbers: a kept position holds its score, a dropped one `−∞`. -/
theorem maskRow_ne_top (len : BitVec 32) (x : Fin 1024 → EReal) (hx : ∀ s, Fin' (x s)) (s : Fin 1024) : maskRow len x s ≠ ⊤ := by
  unfold maskRow Scalar.select
  split
  · exact (hx s).ne_top
  · exact bot_ne_top

/-- At a kept position the masked row holds the score. -/
theorem maskRow_kept (len : BitVec 32) (x : Fin 1024 → EReal) (s : Fin 1024) (h : keep len s = 1#1) : maskRow len x s = x s := by
  unfold maskRow Scalar.select
  exact if_pos h

/-- The row maximum of a row with no `+∞` and a real number somewhere is a real number. -/
theorem rowMax_fin (x : Fin 1024 → EReal) (hx : ∀ s, x s ≠ ⊤) (s0 : Fin 1024) (h0 : Fin' (x s0)) : Fin' (rowMax x) := by
  refine fin'_of_ne ?_ ?_
  · have : rowMax x < ⊤ := by
      unfold rowMax
      rw [Finset.fold_max_lt]
      exact ⟨bot_lt_top, fun s _ => lt_top_iff_ne_top.mpr (hx s)⟩
    exact this.ne
  · have hle : x s0 ≤ rowMax x := by
      unfold rowMax
      exact Finset.le_fold_max (c := x s0) |>.mpr (Or.inr ⟨s0, Finset.mem_univ _, le_rfl⟩)
    intro hb
    rw [hb] at hle
    exact h0.ne_bot (le_bot_iff.mp hle)

/-- The exponential of `y − m` for real `m` and `y` real or `−∞` is a real number that is not negative. -/
theorem exp_sub_fin (y m : EReal) (hy : y ≠ ⊤) (hm : Fin' m) : ∃ r : ℝ, 0 ≤ r ∧ Ideal.exp (y - m) = (r : EReal) := by
  obtain ⟨mr, rfl⟩ := hm
  induction y using EReal.rec with
  | bot => exact ⟨0, le_rfl, by simp [EReal.bot_sub]⟩
  | coe a => exact ⟨Real.exp (a - mr), (Real.exp_pos _).le, by rw [← EReal.coe_sub]; rfl⟩
  | top => exact absurd rfl hy

/-- At a real entry that exponential is positive. -/
theorem exp_sub_pos (y m : EReal) (hy : Fin' y) (hm : Fin' m) : ∃ r : ℝ, 0 < r ∧ Ideal.exp (y - m) = (r : EReal) := by
  obtain ⟨mr, rfl⟩ := hm
  obtain ⟨a, rfl⟩ := hy
  exact ⟨Real.exp (a - mr), Real.exp_pos _, by rw [← EReal.coe_sub]; rfl⟩

/-- The softmax of a row with no `+∞` and a real number at some position holds real numbers: the shifted
    exponentials are real and not negative, one of them is positive, so the normaliser is a positive real. -/
theorem soft_fin (x : Fin 1024 → EReal) (hx : ∀ s, x s ≠ ⊤) (s0 : Fin 1024) (h0 : Fin' (x s0)) (s : Fin 1024) : Fin' (soft x s) := by
  have hm := rowMax_fin x hx s0 h0
  choose e he0 he using fun s' => exp_sub_fin (x s') (rowMax x) (hx s') hm
  obtain ⟨p, hp0, hp⟩ := exp_sub_pos (x s0) (rowMax x) h0 hm
  have hsum : (∑ s' : Fin 1024, Ideal.exp (x s' - rowMax x)) = ((∑ s' : Fin 1024, e s' : ℝ) : EReal) := by
    rw [Finset.sum_congr rfl fun s' _ => he s']
    induction (Finset.univ : Finset (Fin 1024)) using Finset.induction_on with
    | empty => simp
    | insert a t ha ih => rw [Finset.sum_insert ha, Finset.sum_insert ha, ih, EReal.coe_add]
  have hpos : 0 < ∑ s' : Fin 1024, e s' := by
    have hes0 : e s0 = p := by
      have := (he s0).symm.trans hp
      exact_mod_cast this
    calc (0 : ℝ) < e s0 := by rw [hes0]; exact hp0
      _ ≤ ∑ s' : Fin 1024, e s' := Finset.single_le_sum (fun i _ => he0 i) (Finset.mem_univ s0)
  unfold soft
  rw [hsum, he s, Ideal.div_coe hpos.ne', ← EReal.coe_mul]
  exact Fin'.coe _

theorem attnRow_fin (q : Fin 1024 → EReal) (M Wi : Fin 1024 → Fin 1024 → EReal) (len : BitVec 32)
    (hq : ∀ d, Fin' (q d)) (hM : ∀ s d, Fin' (M s d)) (hW : ∀ e d, Fin' (Wi e d)) (hlen : 1 ≤ len.toInt) (s : Fin 1024) :
    Fin' (attnRow q M Wi len s) := by
  have hsc : ∀ s', Fin' (score (proj q Wi) M s') := fun s' => score_fin _ _ (fun d => proj_fin q Wi hq hW d) hM s'
  unfold attnRow
  refine soft_fin _ (fun s' => maskRow_ne_top len _ hsc s') 0 ?_ s
  rw [maskRow_kept len _ 0 (keep_zero len hlen)]
  exact hsc 0

theorem ctxRow_fin (a : Fin 1024 → EReal) (M : Fin 1024 → Fin 1024 → EReal) (ha : ∀ s, Fin' (a s)) (hM : ∀ s d, Fin' (M s d))
    (d : Fin 1024) : Fin' (ctxRow a M d) :=
  Fin'.sum _ _ fun s _ => (ha s).mul (hM s d)

end Cert.Attn

end
-- ==== Proof.BlockAt.lean ====
/-
  The two block functions, entry by entry, are the specification's rows — on blocks of real numbers, with
  the residual projection part zero and position 0 inside the length. The weights are the softmax of the
  masked scores, and the scores collapse to the plain products; the context is then a real number, so the
  pass of its residual `c − c` through the output projection contributes nothing.
-/
import proofs.«404834_j81260781241005_3_alg».proof.Proof.ScoreAt
import proofs.«404834_j81260781241005_3_alg».proof.Proof.SoftAt
import proofs.«404834_j81260781241005_3_alg».proof.Proof.SoftFacts

noncomputable section

namespace Cert.KernelIdeal.Blk

open Idealize.ShloMosaic Idealize.ShloMosaic.ValueIdx Cert.KernelIdeal Cert.KernelIdeal.Gen Cert.Attn

/-- Row `r`'s weights as the body computes them are the specification's weights of that row. -/
theorem attn_row (w : BitVec 32) (x0 : Vec Ideal S1x256x1024 .f32) (x1 : Vec Ideal S1x1024x1024 .f32) (x2 x3 : Vec Ideal S1024x1024 .bf16)
    (h0 : ∀ i, Fin' (x0 i)) (h1 : ∀ i, Fin' (x1 i)) (h2 : ∀ i, Fin' (x2 i)) (h3 : ∀ i, x3 i = 0)
    (r : Fin 256) (s : Fin 1024) :
    k0_pay1 (F := Ideal) w (k0_pay12 (F := Ideal) x0 x2 x3 (k0_pay5 (F := Ideal) x1) (k0_pay6 (F := Ideal) x1))
        (k0_pay13 (F := Ideal) x0 x2 x3 (k0_pay5 (F := Ideal) x1)) (ix2 r s)
      = attnRow (fun d => x0 (ix3 (0 : Fin 1) r d)) (fun s' d => x1 (ix3 (0 : Fin 1) s' d)) (fun e d => x2 (ix2 e d)) w s := by
  rw [attn_at]
  unfold attnRow
  exact congrArg (fun f => soft (maskRow w f) s) (funext fun s' => score_at x0 x1 x2 x3 h0 h1 h2 h3 r s')

theorem blkA_at (w : BitVec 32) (x0 : Vec Ideal S1x256x1024 .f32) (x1 : Vec Ideal S1x1024x1024 .f32) (x2 x3 : Vec Ideal S1024x1024 .bf16)
    (h0 : ∀ i, Fin' (x0 i)) (h1 : ∀ i, Fin' (x1 i)) (h2 : ∀ i, Fin' (x2 i)) (h3 : ∀ i, x3 i = 0)
    (r : Fin 256) (s : Fin 1024) :
    blkA (F := Ideal) w x0 x1 x2 x3 (ix3 (0 : Fin 1) r s)
      = attnRow (fun d => x0 (ix3 (0 : Fin 1) r d)) (fun s' d => x1 (ix3 (0 : Fin 1) s' d)) (fun e d => x2 (ix2 e d)) w s := by
  unfold blkA
  rw [attnBlk_at]
  exact attn_row w x0 x1 x2 x3 h0 h1 h2 h3 r s

theorem blkH_at (w : BitVec 32) (x0 : Vec Ideal S1x256x1024 .f32) (x1 : Vec Ideal S1x1024x1024 .f32) (x2 x3 x4 x5 : Vec Ideal S1024x1024 .bf16)
    (h0 : ∀ i, Fin' (x0 i)) (h1 : ∀ i, Fin' (x1 i)) (h2 : ∀ i, Fin' (x2 i)) (h3 : ∀ i, x3 i = 0) (hw : 1 ≤ w.toInt)
    (r : Fin 256) (e : Fin 1024) :
    blkH (F := Ideal) w x0 x1 x2 x3 x4 x5 (ix3 (0 : Fin 1) r e)
      = hRow (fun d => x0 (ix3 (0 : Fin 1) r d)) (fun s' d => x1 (ix3 (0 : Fin 1) s' d)) (fun e' d => x2 (ix2 e' d))
          (fun e' k => x4 (ix2 e' k)) (fun e' k => x5 (ix2 e' k)) w e := by
  -- the context of the row, as the body sums it, is the specification's context: a real number
  have hctx : ∀ k : Fin 1024,
      (∑ s : Fin 1024, k0_pay1 (F := Ideal) w (k0_pay12 (F := Ideal) x0 x2 x3 (k0_pay5 (F := Ideal) x1) (k0_pay6 (F := Ideal) x1))
          (k0_pay13 (F := Ideal) x0 x2 x3 (k0_pay5 (F := Ideal) x1)) (ix2 r s) * k0_pay5 (F := Ideal) x1 (ix2 s k))
        = ctxRow (attnRow (fun d => x0 (ix3 (0 : Fin 1) r d)) (fun s' d => x1 (ix3 (0 : Fin 1) s' d)) (fun e' d => x2 (ix2 e' d)) w)
            (fun s' d => x1 (ix3 (0 : Fin 1) s' d)) k := fun k =>
    Finset.sum_congr rfl fun s _ => by rw [attn_row w x0 x1 x2 x3 h0 h1 h2 h3 r s, memHi_at]
  have hfin : ∀ k : Fin 1024, Fin' (ctxRow (attnRow (fun d => x0 (ix3 (0 : Fin 1) r d)) (fun s' d => x1 (ix3 (0 : Fin 1) s' d)) (fun e' d => x2 (ix2 e' d)) w)
      (fun s' d => x1 (ix3 (0 : Fin 1) s' d)) k) := fun k =>
    ctxRow_fin _ _ (attnRow_fin _ _ _ w (fun d => h0 _) (fun s' d => h1 _) (fun e' d => h2 _) hw) (fun s' d => h1 _) k
  have hz : ∀ k : Fin 1024, ctxRow (attnRow (fun d => x0 (ix3 (0 : Fin 1) r d)) (fun s' d => x1 (ix3 (0 : Fin 1) s' d)) (fun e' d => x2 (ix2 e' d)) w)
      (fun s' d => x1 (ix3 (0 : Fin 1) s' d)) k
      - ctxRow (attnRow (fun d => x0 (ix3 (0 : Fin 1) r d)) (fun s' d => x1 (ix3 (0 : Fin 1) s' d)) (fun e' d => x2 (ix2 e' d)) w)
      (fun s' d => x1 (ix3 (0 : Fin 1) s' d)) k = 0 := fun k => (hfin k).sub_self
  unfold blkH
  rw [hid_at]
  simp only [hctx, hz, zero_mul, Finset.sum_const_zero, add_zero, wc_at, wq_at, qHi_at]
  rfl

end Cert.KernelIdeal.Blk

end
-- ==== Proof.KernelRun.lean ====
/-
  The kernel's run with its two results named. Every point writes its two blocks; the blocks tile the two
  `[16, 512, 1024]` arrays (point `n` covers rows `256·(n mod 2) …` of batch `n / 2`), so each array is one function
  of the arguments, entry by entry; the two host lines after the region swap the first two axes.
-/
import proofs.«404834_j81260781241005_3_alg».proof.Proof.BlockData
import proofs.«404834_j81260781241005_3_alg».proof.Proof.BlockAt
import Idealize.ShloMosaic.Lib.Pipeline.Value

noncomputable section

set_option maxRecDepth 16384

namespace Cert.KernelIdeal.KValue

open Idealize.ShloMosaic Idealize.ShloMosaic.TcCoe Idealize.ShloMosaic.ValueIdx Idealize.SL.Sem
open Cert.KernelIdeal Cert.KernelIdeal.Gen Cert.KernelIdeal.Pieces Cert.Attn

variable (m : (ℓ : Loc nD τ sig) → Buf (Elt Ideal) ℓ) (ρ : Dev nD → PrngReg)

/-- The hidden states before the last two host lines, laid out batch first: `[b, t, e]`. -/
def G6 (c : Dev nD) : S16x512x1024.Idx → EReal := fun i =>
  hRow (qRow (A0 m c) (i 0) (i 1)) (mMat (A1 m c) (i 0)) (wMat (A3 m c)) (wLo (A4 m c)) (wHi (A4 m c)) (A2 m c (ix1 (i 0))) (i 2)

/-- The attention weights before the last two host lines, laid out batch first: `[b, t, s]`. -/
def G7 (c : Dev nD) : S16x512x1024.Idx → EReal := fun i =>
  attnRow (qRow (A0 m c) (i 0) (i 1)) (mMat (A1 m c) (i 0)) (wMat (A3 m c)) (A2 m c (ix1 (i 0))) (i 2)

/-- An index of a block with one leading row is `(0, ·, ·)`. -/
theorem eq_ix3_unit {n1 n2 : Nat} (i : (⟨3, ![1, n1, n2]⟩ : Shape).Idx) : i = ix3 (0 : Fin 1) (i 1) (i 2) := by
  funext a
  match a with
  | ⟨0, _⟩ => exact Fin.ext (by have h : (i 0).val < 1 := (i 0).isLt; show (i 0).val = 0; omega)
  | ⟨1, _⟩ => rfl
  | ⟨2, _⟩ => rfl

/-! ## The blocks a point is handed hold real numbers -/

theorem qblk_fin (hO : Ok m) (h0 : ∀ c i, Fin' (A0 m c i)) (c : Dev nD) (t : Fin (cfgM m hO).N) (i : S1x256x1024.Idx) :
    Fin' (qblk m hO c t i) := by
  obtain ⟨r, d, rfl⟩ : ∃ (r : Fin 256) (d : Fin 1024), i = ix3 (0 : Fin 1) r d := ⟨i 1, i 2, eq_ix3_unit i⟩
  rw [qblk_at]
  exact h0 c _

theorem mblk_fin (hO : Ok m) (h1 : ∀ c i, Fin' (A1 m c i)) (c : Dev nD) (t : Fin (cfgM m hO).N) (i : S1x1024x1024.Idx) :
    Fin' (mblk m hO c t i) := by
  obtain ⟨s, d, rfl⟩ : ∃ (s : Fin 1024) (d : Fin 1024), i = ix3 (0 : Fin 1) s d := ⟨i 1, i 2, eq_ix3_unit i⟩
  rw [mblk_at]
  exact h1 c _

theorem wiHi_fin (hO : Ok m) (h3 : ∀ c i, Fin' (A3 m c i)) (c : Dev nD) (t : Fin (cfgM m hO).N) (i : S1024x1024.Idx) :
    Fin' (wiHi m hO c t i) := by
  obtain ⟨e, d, rfl⟩ : ∃ (e : Fin 1024) (d : Fin 1024), i = ix2 e d := ⟨i 0, i 1, eq_ix2 i⟩
  rw [wiHi_at]
  exact h3 c _

/-! ## What a point writes, entry by entry -/

theorem blkH_entry (hO : Ok m) (h0 : ∀ c i, Fin' (A0 m c i)) (h1 : ∀ c i, Fin' (A1 m c i)) (h3 : ∀ c i, Fin' (A3 m c i))
    (hlen : ∀ c (b : Fin 16), 1 ≤ (A2 m c (ix1 b)).toInt) (c : Dev nD) (t : Fin (cfgM m hO).N) (r : Fin 256) (e : Fin 1024) :
    (outsAt0 m hO c t.val t.isLt).1 (ix3 (0 : Fin 1) r e) = G6 m c (ix3 (batchOf t.val) (rowOf t.val r) e) := by
  rw [outH_at m hO c t]
  refine (Blk.blkH_at (lenAt m hO c t) (qblk m hO c t) (mblk m hO c t) (wiHi m hO c t) (wiLo m hO c t) (woC m hO c t) (woQ m hO c t)
    (qblk_fin m hO h0 c t) (mblk_fin m hO h1 c t) (wiHi_fin m hO h3 c t) (fun i => wiLo_at m hO c t (h3 c) i)
    (by rw [lenAt_eq]; exact hlen c _) r e).trans ?_
  have eq : (fun d => qblk m hO c t (ix3 (0 : Fin 1) r d)) = qRow (A0 m c) (batchOf t.val) (rowOf t.val r) :=
    funext fun d => qblk_at m hO c t r d
  have em : (fun s' d => mblk m hO c t (ix3 (0 : Fin 1) s' d)) = mMat (A1 m c) (batchOf t.val) :=
    funext fun s' => funext fun d => mblk_at m hO c t s' d
  have ei : (fun e' d => wiHi m hO c t (ix2 e' d)) = wMat (A3 m c) :=
    funext fun e' => funext fun d => wiHi_at m hO c t e' d
  have ec : (fun e' k => woC m hO c t (ix2 e' k)) = wLo (A4 m c) :=
    funext fun e' => funext fun k => woC_at m hO c t e' k
  have ew : (fun e' k => woQ m hO c t (ix2 e' k)) = wHi (A4 m c) :=
    funext fun e' => funext fun k => woQ_at m hO c t e' k
  rw [eq, em, ei, ec, ew, lenAt_eq]
  rfl

theorem blkA_entry (hO : Ok m) (h0 : ∀ c i, Fin' (A0 m c i)) (h1 : ∀ c i, Fin' (A1 m c i)) (h3 : ∀ c i, Fin' (A3 m c i))
    (c : Dev nD) (t : Fin (cfgM m hO).N) (r : Fin 256) (s : Fin 1024) :
    (outsAt0 m hO c t.val t.isLt).2.1 (ix3 (0 : Fin 1) r s) = G7 m c (ix3 (batchOf t.val) (rowOf t.val r) s) := by
  rw [outA_at m hO c t]
  refine (Blk.blkA_at (lenAt m hO c t) (qblk m hO c t) (mblk m hO c t) (wiHi m hO c t) (wiLo m hO c t)
    (qblk_fin m hO h0 c t) (mblk_fin m hO h1 c t) (wiHi_fin m hO h3 c t) (fun i => wiLo_at m hO c t (h3 c) i) r s).trans ?_
  have eq : (fun d => qblk m hO c t (ix3 (0 : Fin 1) r d)) = qRow (A0 m c) (batchOf t.val) (rowOf t.val r) :=
    funext fun d => qblk_at m hO c t r d
  have em : (fun s' d => mblk m hO c t (ix3 (0 : Fin 1) s' d)) = mMat (A1 m c) (batchOf t.val) :=
    funext fun s' => funext fun d => mblk_at m hO c t s' d
  have ei : (fun e' d => wiHi m hO c t (ix2 e' d)) = wMat (A3 m c) :=
    funext fun e' => funext fun d => wiHi_at m hO c t e' d
  rw [eq, em, ei, lenAt_eq]
  rfl

/-! ## The blocks tile the two arrays -/

/-- Where point `t`'s block of the two outputs sits: batch `t / 2`, tile `t mod 2`, all the features. -/
theorem idx_out : ∀ t : Fin grid0.N,
    (cc0_transform_6 (grid0.coords t) 0 = t.val / 2 ∧ cc0_transform_6 (grid0.coords t) 1 = t.val % 2 ∧ cc0_transform_6 (grid0.coords t) 2 = 0)
    ∧ (cc0_transform_7 (grid0.coords t) 0 = t.val / 2 ∧ cc0_transform_7 (grid0.coords t) 1 = t.val % 2 ∧ cc0_transform_7 (grid0.coords t) 2 = 0) := by
  decide +kernel

/-- The embedded index of entry `(0, r, e)` of point `t`'s block of the hidden states. -/
theorem emb6 (hO : Ok m) (t : Fin (cfgM m hO).N) (r : Fin 256) (e : Fin 1024) :
    (((cfgM m hO).win 6).blk t).view.emb (ix3 (0 : Fin 1) r e) = ix3 (batchOf t.val) (rowOf t.val r) e := by
  obtain ⟨⟨e0, e1, e2⟩, -⟩ := idx_out t
  have hN : t.val < 32 := by have h := t.isLt; have e : (cfgM m hO).N = 32 := N_0; omega
  funext a
  apply Fin.ext
  match a with
  | ⟨0, _⟩ => show cc0_transform_6 (grid0.coords t) 0 * 1 + 1 * 0 = t.val / 2 % 16; rw [e0]; omega
  | ⟨1, _⟩ => show cc0_transform_6 (grid0.coords t) 1 * 256 + 1 * r.val = (t.val % 2 * 256 + r.val) % 512; rw [e1]; have := r.isLt; omega
  | ⟨2, _⟩ => show cc0_transform_6 (grid0.coords t) 2 * 1024 + 1 * e.val = e.val; rw [e2]; omega

/-- The embedded index of entry `(0, r, s)` of point `t`'s block of the attention weights. -/
theorem emb7 (hO : Ok m) (t : Fin (cfgM m hO).N) (r : Fin 256) (s : Fin 1024) :
    (((cfgM m hO).win 7).blk t).view.emb (ix3 (0 : Fin 1) r s) = ix3 (batchOf t.val) (rowOf t.val r) s := by
  obtain ⟨-, e0, e1, e2⟩ := idx_out t
  have hN : t.val < 32 := by have h := t.isLt; have e : (cfgM m hO).N = 32 := N_0; omega
  funext a
  apply Fin.ext
  match a with
  | ⟨0, _⟩ => show cc0_transform_7 (grid0.coords t) 0 * 1 + 1 * 0 = t.val / 2 % 16; rw [e0]; omega
  | ⟨1, _⟩ => show cc0_transform_7 (grid0.coords t) 1 * 256 + 1 * r.val = (t.val % 2 * 256 + r.val) % 512; rw [e1]; have := r.isLt; omega
  | ⟨2, _⟩ => show cc0_transform_7 (grid0.coords t) 2 * 1024 + 1 * s.val = s.val; rw [e2]; omega

/-- What point `t` writes back into the hidden states is its block of `G6`. -/
theorem flushed6_eq (hO : Ok m) (h0 : ∀ c i, Fin' (A0 m c i)) (h1 : ∀ c i, Fin' (A1 m c i)) (h3 : ∀ c i, Fin' (A3 m c i))
    (hlen : ∀ c (b : Fin 16), 1 ≤ (A2 m c (ix1 b)).toInt) (c : Dev nD) (t : Fin (cfgM m hO).N) :
    (dats m hO 0 c).flushed 6 t = (((cfgM m hO).win 6).blk t).view.read (Elt Ideal) (G6 m c) := by
  show ((cfgM m hO).win 6).cut ((cfgM m hO).grid.coords t) ((dats m hO 0 c).after 6 t) = _
  rw [after0_6]
  refine funext fun (y : S1x256x1024.Idx) => ?_
  obtain ⟨r, e, rfl⟩ : ∃ (r : Fin 256) (e : Fin 1024), y = ix3 (0 : Fin 1) r e := ⟨y 1, y 2, eq_ix3_unit y⟩
  show (outsAt0 m hO c t.val t.isLt).1 (ix3 (0 : Fin 1) r e) = G6 m c ((((cfgM m hO).win 6).blk t).view.emb (ix3 (0 : Fin 1) r e))
  rw [emb6 m hO t r e]
  exact blkH_entry m hO h0 h1 h3 hlen c t r e

/-- What point `t` writes back into the attention weights is its block of `G7`. -/
theorem flushed7_eq (hO : Ok m) (h0 : ∀ c i, Fin' (A0 m c i)) (h1 : ∀ c i, Fin' (A1 m c i)) (h3 : ∀ c i, Fin' (A3 m c i))
    (c : Dev nD) (t : Fin (cfgM m hO).N) :
    (dats m hO 0 c).flushed 7 t = (((cfgM m hO).win 7).blk t).view.read (Elt Ideal) (G7 m c) := by
  show ((cfgM m hO).win 7).cut ((cfgM m hO).grid.coords t) ((dats m hO 0 c).after 7 t) = _
  rw [after0_7]
  refine funext fun (y : S1x256x1024.Idx) => ?_
  obtain ⟨r, s, rfl⟩ : ∃ (r : Fin 256) (s : Fin 1024), y = ix3 (0 : Fin 1) r s := ⟨y 1, y 2, eq_ix3_unit y⟩
  show (outsAt0 m hO c t.val t.isLt).2.1 (ix3 (0 : Fin 1) r s) = G7 m c ((((cfgM m hO).win 7).blk t).view.emb (ix3 (0 : Fin 1) r s))
  rw [emb7 m hO t r s]
  exact blkA_entry m hO h0 h1 h3 c t r s

/-- An index of the array is in point `t`'s block of the hidden states iff each coordinate is in the block's range. -/
theorem mem_blk6 (hO : Ok m) (t : Fin (cfgM m hO).N) (i : S16x512x1024.Idx) :
    i ∈ (((cfgM m hO).win 6).blk t).view.set ↔ ∀ a : Fin 3, cc0_transform_6 (grid0.coords t) a * S1x256x1024.size a ≤ (i a).val
      ∧ (i a).val < cc0_transform_6 (grid0.coords t) a * S1x256x1024.size a + S1x256x1024.size a := by
  have e : (((cfgM m hO).win 6).blk t).view.set = (((cfgM m hO).win 6).rect t).set := View.set_slice_whole main_v8_0 _
  rw [e]
  exact Rect.mem_set_unit

/-- An index of the array is in point `t`'s block of the attention weights iff each coordinate is in the block's range. -/
theorem mem_blk7 (hO : Ok m) (t : Fin (cfgM m hO).N) (i : S16x512x1024.Idx) :
    i ∈ (((cfgM m hO).win 7).blk t).view.set ↔ ∀ a : Fin 3, cc0_transform_7 (grid0.coords t) a * S1x256x1024.size a ≤ (i a).val
      ∧ (i a).val < cc0_transform_7 (grid0.coords t) a * S1x256x1024.size a + S1x256x1024.size a := by
  have e : (((cfgM m hO).win 7).blk t).view.set = (((cfgM m hO).win 7).rect t).set := View.set_slice_whole main_v8_1 _
  rw [e]
  exact Rect.mem_set_unit

/-- Row `(b, t)` of the hidden states lies in the block of point `2 b + t / 256`. -/
theorem cover6 (hO : Ok m) (i : S16x512x1024.Idx) :
    ∃ t : Fin (cfgM m hO).N, ((cfgM m hO).win 6).flush t = true ∧ i ∈ (((cfgM m hO).win 6).blk t).view.set := by
  have h0 : (i 0).val < 16 := (i 0).isLt
  have h1 : (i 1).val < 512 := (i 1).isLt
  have h2 : (i 2).val < 1024 := (i 2).isLt
  have hN : (cfgM m hO).N = 32 := N_0
  obtain ⟨t, ht⟩ : ∃ t : Fin (cfgM m hO).N, t.val = 2 * (i 0).val + (i 1).val / 256 :=
    ⟨⟨2 * (i 0).val + (i 1).val / 256, by omega⟩, rfl⟩
  refine ⟨t, flush0_6 (adm m hO) t, ?_⟩
  rw [mem_blk6]
  obtain ⟨⟨e0, e1, e2⟩, -⟩ := idx_out t
  intro a
  match a with
  | ⟨0, _⟩ =>
    show cc0_transform_6 (grid0.coords t) 0 * 1 ≤ (i 0).val ∧ (i 0).val < cc0_transform_6 (grid0.coords t) 0 * 1 + 1
    rw [e0]; omega
  | ⟨1, _⟩ =>
    show cc0_transform_6 (grid0.coords t) 1 * 256 ≤ (i 1).val ∧ (i 1).val < cc0_transform_6 (grid0.coords t) 1 * 256 + 256
    rw [e1]; omega
  | ⟨2, _⟩ =>
    show cc0_transform_6 (grid0.coords t) 2 * 1024 ≤ (i 2).val ∧ (i 2).val < cc0_transform_6 (grid0.coords t) 2 * 1024 + 1024
    rw [e2]; omega

/-- Row `(b, t)` of the attention weights lies in the block of point `2 b + t / 256`. -/
theorem cover7 (hO : Ok m) (i : S16x512x1024.Idx) :
    ∃ t : Fin (cfgM m hO).N, ((cfgM m hO).win 7).flush t = true ∧ i ∈ (((cfgM m hO).win 7).blk t).view.set := by
  have h0 : (i 0).val < 16 := (i 0).isLt
  have h1 : (i 1).val < 512 := (i 1).isLt
  have h2 : (i 2).val < 1024 := (i 2).isLt
  have hN : (cfgM m hO).N = 32 := N_0
  obtain ⟨t, ht⟩ : ∃ t : Fin (cfgM m hO).N, t.val = 2 * (i 0).val + (i 1).val / 256 :=
    ⟨⟨2 * (i 0).val + (i 1).val / 256, by omega⟩, rfl⟩
  refine ⟨t, flush0_7 (adm m hO) t, ?_⟩
  rw [mem_blk7]
  obtain ⟨-, e0, e1, e2⟩ := idx_out t
  intro a
  match a with
  | ⟨0, _⟩ =>
    show cc0_transform_7 (grid0.coords t) 0 * 1 ≤ (i 0).val ∧ (i 0).val < cc0_transform_7 (grid0.coords t) 0 * 1 + 1
    rw [e0]; omega
  | ⟨1, _⟩ =>
    show cc0_transform_7 (grid0.coords t) 1 * 256 ≤ (i 1).val ∧ (i 1).val < cc0_transform_7 (grid0.coords t) 1 * 256 + 256
    rw [e1]; omega
  | ⟨2, _⟩ =>
    show cc0_transform_7 (grid0.coords t) 2 * 1024 ≤ (i 2).val ∧ (i 2).val < cc0_transform_7 (grid0.coords t) 2 * 1024 + 1024
    rw [e2]; omega

/-! ## The two arrays after the region -/

theorem final6 (hO : Ok m) (h0 : ∀ c i, Fin' (A0 m c i)) (h1 : ∀ c i, Fin' (A1 m c i)) (h3 : ∀ c i, Fin' (A3 m c i))
    (hlen : ∀ c (b : Fin 16), 1 ≤ (A2 m c (ix1 b)).toInt) (c : Dev nD) :
    (dats m hO 0 c).arrAt 6 (cfgM m hO).N = G6 m c :=
  (dats m hO 0 c).arrAt_eq_of_cover 6 (G6 m c) (fun t _ => flushed6_eq m hO h0 h1 h3 hlen c t) (cover6 m hO)

theorem final7 (hO : Ok m) (h0 : ∀ c i, Fin' (A0 m c i)) (h1 : ∀ c i, Fin' (A1 m c i)) (h3 : ∀ c i, Fin' (A3 m c i))
    (c : Dev nD) :
    (dats m hO 0 c).arrAt 7 (cfgM m hO).N = G7 m c :=
  (dats m hO 0 c).arrAt_eq_of_cover 7 (G7 m c) (fun t _ => flushed7_eq m hO h0 h1 h3 c t) (cover7 m hO)

/-! ## The two host lines after the region: the first two axes swapped -/

theorem tail9 (hO : Ok m) (h0 : ∀ c i, Fin' (A0 m c i)) (h1 : ∀ c i, Fin' (A1 m c i)) (h3 : ∀ c i, Fin' (A3 m c i))
    (hlen : ∀ c (b : Fin 16), 1 ≤ (A2 m c (ix1 b)).toInt) (c : Dev nD) :
    Pipeline.afterTail pcfgs (fun _ => adm m hO) (dats m hO) 0 (V0 m) [hostOps1] c main_v9
      = OutH (A0 m c) (A1 m c) (A2 m c) (A3 m c) (A4 m c) := by
  unfold Pipeline.afterTail
  show StableHlo.after hostOps1 _ (Proc.devRef .tc main_v9) = _
  after_results
  have e : Pipeline.withArrays (Pipeline.pin pcfgs (fun x => adm m hO) 0).spec c (V0 m c)
      (fun w => (dats m hO 0 c).arrAt w (Pipeline.pin pcfgs (fun x => adm m hO) 0).N) (Proc.devRef .tc main_v8_0) = G6 m c :=
    (Pipeline.withArrays_arr spec0 (launch0 (F := Ideal)).win.arr_inj c _ _ 6).trans (final6 m hO h0 h1 h3 hlen c)
  refine (congrArg (fun x : S16x512x1024.Idx → EReal =>
    transpose S512x16x1024 [1, 0, 2] x transposes_S16x512x1024_S512x16x1024_1_0_2) e).trans ?_
  funext i
  refine (transpose_apply [1, 0, 2] (G6 m c) transposes_S16x512x1024_S512x16x1024_1_0_2 i
    (ix3 (n0 := 16) (n1 := 512) (n2 := 1024) (i 1) (i 0) (i 2)) (fun b => match b with
    | ⟨0, _⟩ => rfl
    | ⟨1, _⟩ => rfl
    | ⟨2, _⟩ => rfl)).trans ?_
  rfl

theorem tail10 (hO : Ok m) (h0 : ∀ c i, Fin' (A0 m c i)) (h1 : ∀ c i, Fin' (A1 m c i)) (h3 : ∀ c i, Fin' (A3 m c i))
    (c : Dev nD) :
    Pipeline.afterTail pcfgs (fun _ => adm m hO) (dats m hO) 0 (V0 m) [hostOps1] c main_v10
      = OutA (A0 m c) (A1 m c) (A2 m c) (A3 m c) := by
  unfold Pipeline.afterTail
  show StableHlo.after hostOps1 _ (Proc.devRef .tc main_v10) = _
  after_results
  have e : Pipeline.withArrays (Pipeline.pin pcfgs (fun x => adm m hO) 0).spec c (V0 m c)
      (fun w => (dats m hO 0 c).arrAt w (Pipeline.pin pcfgs (fun x => adm m hO) 0).N) (Proc.devRef .tc main_v8_1) = G7 m c :=
    (Pipeline.withArrays_arr spec0 (launch0 (F := Ideal)).win.arr_inj c _ _ 7).trans (final7 m hO h0 h1 h3 c)
  refine (congrArg (fun x : S16x512x1024.Idx → EReal =>
    transpose S512x16x1024 [1, 0, 2] x transposes_S16x512x1024_S512x16x1024_1_0_2) e).trans ?_
  funext i
  refine (transpose_apply [1, 0, 2] (G7 m c) transposes_S16x512x1024_S512x16x1024_1_0_2 i
    (ix3 (n0 := 16) (n1 := 512) (n2 := 1024) (i 1) (i 0) (i 2)) (fun b => match b with
    | ⟨0, _⟩ => rfl
    | ⟨1, _⟩ => rfl
    | ⟨2, _⟩ => rfl)).trans ?_
  rfl

/-! ## The run -/

/-- Under the facts the precondition gives (real entries, lengths at least one), every weakly fair execution
    of the kernel's program ends with the hidden states and the attention weights of the specification in its
    two results and the arguments unchanged. -/
theorem run (hO : Ok m) (h0 : ∀ c i, Fin' (A0 m c i)) (h1 : ∀ c i, Fin' (A1 m c i)) (h3 : ∀ c i, Fin' (A3 m c i))
    (hlen : ∀ c (b : Fin 16), 1 ≤ (A2 m c (ix1 b)).toInt) :
    θ_run (defs (F := Ideal)) (onTc (τ := τ) (main (F := Ideal))) ⟨m, fun _ => 0, ρ⟩ (fun r => ∀ c : Dev nD,
      r.2.mem ((c.tc : Thread nD τ).loc main_v9) = OutH (A0 m c) (A1 m c) (A2 m c) (A3 m c) (A4 m c)
      ∧ r.2.mem ((c.tc : Thread nD τ).loc main_v10) = OutA (A0 m c) (A1 m c) (A2 m c) (A3 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v9 (by decide : main_v9 ∈ Pipeline.restRefs sig spec0)).trans (tail9 m hO h0 h1 h3 hlen c),
     ((h c).2 main_v10 (by decide : main_v10 ∈ Pipeline.restRefs sig spec0)).trans (tail10 m hO h0 h1 h3 c),
     ((h c).1 0).trans (((dats m hO 0 c).arrAt_in 0 rfl _).trans ((A_eq m hO c 0).trans (V_main_arg0 m c))),
     ((h c).1 1).trans (((dats m hO 0 c).arrAt_in 1 rfl _).trans ((A_eq m hO c 1).trans (V_main_arg1 m c))),
     ((h c).2 main_arg2 (by decide : main_arg2 ∈ Pipeline.restRefs sig spec0)).trans (W_main_arg2 m hO (dats m hO) c),
     ((h c).2 main_arg3 (by decide : main_arg3 ∈ Pipeline.restRefs sig spec0)).trans (W_main_arg3 m hO (dats m hO) c),
     ((h c).2 main_arg4 (by decide : main_arg4 ∈ Pipeline.restRefs sig spec0)).trans (W_main_arg4 m hO (dats m hO) c)⟩)
    (run_main m ρ hO)

end Cert.KernelIdeal.KValue

end
-- ==== Proof.PreFacts.lean ====
/-
  What the precondition says of the arguments: every entry of the four float arrays is a real number, and
  every length is at least one.
-/
import proofs.«404834_j81260781241005_3_alg».proof.Proof.Gen.Pre_finite_inputs
import proofs.«404834_j81260781241005_3_alg».proof.Proof.Finite
import Idealize.ShloMosaic.PureOps.Ideal
import Idealize.ShloMosaic.Lib.ValueIdx
import Idealize.ShloMosaic.Lib.ReduceAll
import Idealize.ShloMosaic.Lib.StableHlo.Predicate

noncomputable section

namespace Cert.Attn

open Idealize.ShloMosaic Idealize.ShloMosaic.ValueIdx Cert.Pre_finite_inputs

/-- The rank-0 shape has one index. -/
instance subsingleton_S_ : Subsingleton S_.Idx := ⟨fun a b => funext fun d => d.elim0⟩

/-- The pattern 0x7F800000 (sign 0, exponent all ones, fraction 0) denotes +∞. -/
theorem inf_pattern : Ideal.ofBits .f32 0x7F800000#32 = (⊤ : EReal) := by
  simp [Ideal.ofBits, Ideal.ieee]

/-- |x| < +∞ on the extended reals: x is neither infinity, so it is a real number. -/
theorem fin'_of_abs_lt_top (x : EReal) (h : Ideal.cmp .olt (max x (-x)) (⊤ : EReal) = 1#1) : Fin' x := by
  have hlt : max x (-x) < ⊤ := by
    simpa only [Ideal.cmp, StableHlo.Predicate.ofBool_eq_one_iff, decide_eq_true_eq] using h
  refine fin'_of_ne ?_ ?_
  · rintro rfl
    simp at hlt
  · rintro rfl
    simp at hlt

/-- One conjunct jnp.all(|a| < +∞): every entry of a is a real number. -/
theorem all_fin {s : Shape} {axes : List (Fin s.rank)} (a : FVec Ideal s .f32)
    (hb : S_.BroadcastsInDim s (![] : Fin 0 → Fin s.rank)) (hr : s.ReducesTo axes S_) (h0 : 0 < S_.numel)
    (init : IVec S_ 1)
    (e : Host.reduce IntOp.andi
          (cmpf .olt (Host.absf a) (broadcastInDim s ![] hb (constant (F := Ideal) S_ .f32 0x7F800000#32)))
          init hr h0 ix0 = 1#1) :
    ∀ i, Fin' (a i) := by
  intro i
  have hi := Host.reduce_andi_all _ init hr h0 ix0 e i
  refine fin'_of_abs_lt_top (a i) ?_
  rw [← inf_pattern]
  exact hi

/-- a ≥ 1 on signed 32-bit words says 1 ≤ a as an integer. -/
theorem one_le_of_sge (a : BitVec 32) (h : IntOp.cmpi .sge a 1#32 = 1#1) : 1 ≤ a.toInt := by
  unfold IntOp.cmpi at h
  rw [StableHlo.Predicate.ofBool_eq_one_iff] at h
  simp only [BitVec.sle, decide_eq_true_eq] at h
  have h1 : (1#32 : BitVec 32).toInt = 1 := by decide
  omega

theorem of_pre (a0 : FVec Ideal S16x512x1024 .f32) (a1 : FVec Ideal S16x1024x1024 .f32) (a2 : IVec S16 32)
    (a3 : FVec Ideal S1024x1024 .f32) (a4 : FVec Ideal S1024x2048 .f32)
    (h : Cert.Pre_finite_inputs.fn (F := Ideal) a0 a1 a2 a3 a4 = fun _ => 1#1) :
    (∀ i, Fin' (a0 i)) ∧ (∀ i, Fin' (a1 i)) ∧ (∀ i, Fin' (a3 i)) ∧ (∀ i, Fin' (a4 i))
      ∧ ∀ b : Fin 16, 1 ≤ (a2 (ix1 b)).toInt := by
  have h' := congrFun h ix0
  dsimp only [Cert.Pre_finite_inputs.fn, Cert.Pre_finite_inputs.fn_part1, andi] at h'
  obtain ⟨h1234, h5⟩ := IntOp.andi_eq_one.1 h'
  obtain ⟨h123, h4⟩ := IntOp.andi_eq_one.1 h1234
  obtain ⟨h12, h3⟩ := IntOp.andi_eq_one.1 h123
  obtain ⟨h1, h2⟩ := IntOp.andi_eq_one.1 h12
  refine ⟨all_fin a0 _ _ _ _ h1, all_fin a1 _ _ _ _ h2, all_fin a3 _ _ _ _ h3, all_fin a4 _ _ _ _ h4, fun b => ?_⟩
  have hb := Host.reduce_andi_all _ _ _ _ ix0 h5 (ix1 b)
  exact one_le_of_sge _ hb

end Cert.Attn

end
-- ==== Proof.lean ====
/-
  Masked dot-product attention, a kernel against its plain reference.

  Both programs compute, for every query row, the projected query `q W_inᵀ`, its scores against the batch's
  memory rows, the softmax of the scores masked by the batch's length, the context `a M`, and
  `tanh ([c, q] W_outᵀ)`; the results are the hidden states and the weights, target position first.
  The kernel works on 256 rows at a time and splits every operand of a product into a narrowed part and the
  residual of the narrowing; on the extended reals narrowing changes nothing, so every residual is `x − x`,
  which is 0 exactly where `x` is a real number. The precondition makes the float inputs real and every
  length at least one; then each row keeps position 0, the row maximum is a real number, the normaliser is a
  positive real number, and every intermediate the kernel subtracts from itself is real. So the kernel's
  three-pass products are the reference's single products and the two programs agree entry by entry
  (`Cert.Attn`: the common specification; the kernel's run ends at it, the reference's read-back term is it).
  With a length below one the claim fails on the junk values of a fully masked row, which is why the
  precondition carries the lengths' lower bound: there the reference itself has no value.
-/
import proofs.«404834_j81260781241005_3_alg».proof.Defs
import proofs.«404834_j81260781241005_3_alg».proof.Proof.Gen.Kernel
import proofs.«404834_j81260781241005_3_alg».proof.Proof.Gen.Kernel.Skeleton
import proofs.«404834_j81260781241005_3_alg».proof.Proof.Gen.Kernel.Launch
import proofs.«404834_j81260781241005_3_alg».proof.Proof.Gen.Kernel.Points
import proofs.«404834_j81260781241005_3_alg».proof.Proof.Gen.Kernel.Frame
import proofs.«404834_j81260781241005_3_alg».proof.Proof.Gen.KernelIdeal
import proofs.«404834_j81260781241005_3_alg».proof.Proof.Gen.KernelIdeal.Skeleton
import proofs.«404834_j81260781241005_3_alg».proof.Proof.Gen.KernelIdeal.Launch
import proofs.«404834_j81260781241005_3_alg».proof.Proof.Gen.KernelIdeal.Points
import proofs.«404834_j81260781241005_3_alg».proof.Proof.Gen.KernelIdeal.Frame
import proofs.«404834_j81260781241005_3_alg».proof.Proof.Gen.ReferenceIdeal
import proofs.«404834_j81260781241005_3_alg».proof.Proof.Gen.Pre_finite_inputs
import proofs.«404834_j81260781241005_3_alg».proof.Proof.RefRun
import proofs.«404834_j81260781241005_3_alg».proof.Proof.RefRead
import proofs.«404834_j81260781241005_3_alg».proof.Proof.RefValue
import proofs.«404834_j81260781241005_3_alg».proof.Proof.KernelRun
import proofs.«404834_j81260781241005_3_alg».proof.Proof.PreFacts
import Idealize.ShloMosaic.Adequacy
import Idealize.ShloMosaic.Init

noncomputable section

namespace Cert.Proof

open Idealize.ShloMosaic Idealize.SL.Sem

/-- No index map of the kernel's windows reads the table of lengths, so the tables' side condition is empty. -/
theorem ok_kernel {F : FTy → Type} [FloatOps F] (m : (ℓ : Loc Cert.Kernel.nD Cert.Kernel.τ Cert.Kernel.sig) → Buf (Elt F) ℓ) :
    Cert.Kernel.Gen.Ok m := by
  show Cert.Kernel.ok0 _
  unfold Cert.Kernel.ok0
  trivial

theorem ok_kernelIdeal {F : FTy → Type} [FloatOps F] [Named F] (m : (ℓ : Loc Cert.KernelIdeal.nD Cert.KernelIdeal.τ Cert.KernelIdeal.sig) → Buf (Elt F) ℓ) :
    Cert.KernelIdeal.Gen.Ok m := by
  show Cert.KernelIdeal.ok0 _
  unfold Cert.KernelIdeal.ok0
  trivial

theorem frame_k : Cert.frame_Kernel := fun m ρ _ => Cert.Kernel.Gen.frame m ρ (ok_kernel m)

theorem frame_ki : Cert.frame_KernelIdeal := fun m ρ _ => Cert.KernelIdeal.Gen.frame m ρ (ok_kernelIdeal m)

/-- The reference's frame is its run with the results dropped. -/
theorem frame_ri : Cert.frame_ReferenceIdeal := fun m ρ _ =>
  (θ_run Cert.ReferenceIdeal.defs _ _).mono (fun _ h c => (h c).2.2) (Cert.ReferenceIdeal.RunP.run (F := Ideal) m ρ)

/-- The ledger: four narrow-and-widen windows replaced by their operand (the identity on the extended reals),
    and the mask fill named `−∞`. -/
theorem preserves : Cert.preserves_Kernel_KernelIdeal :=
  ⟨IdealRules.truncf_extf.statement Cert.KernelIdeal.S1024x1024 .f32 .bf16,
   IdealRules.truncf_extf.statement Cert.KernelIdeal.S256x1024 .f32 .bf16,
   IdealRules.truncf_extf.statement Cert.KernelIdeal.S256x1024 .f32 .bf16,
   IdealRules.named_const.statement Cert.KernelIdeal.κ "neg_big" .f32 0xFF333332#32 ⊥ rfl,
   IdealRules.truncf_extf.statement Cert.KernelIdeal.S256x1024 .f32 .bf16⟩

/-- From memories agreeing on the arguments both programs end at the specification's two arrays of those
    arguments: the kernel by its run read off block by block, the reference by its operations read one at a time. -/
theorem algebraic : Cert.algebraic_KernelIdeal_ReferenceIdeal := by
  intro m ρ m' ρ' hpre hagree
  have facts := fun c => Cert.Attn.of_pre _ _ _ _ _ (hpre c)
  refine ⟨_, _, Cert.KernelIdeal.KValue.run m ρ (ok_kernelIdeal m) (fun c => (facts c).1) (fun c => (facts c).2.1)
    (fun c => (facts c).2.2.1) (fun c => (facts c).2.2.2.2), ?_⟩
  refine (θ_run Cert.ReferenceIdeal.defs _ _).mono (fun _ h c => ⟨(h c).1.trans ?_, (h c).2.1.trans ?_, (h c).2.2⟩)
    (Cert.ReferenceIdeal.RunP.run (F := Ideal) m' ρ')
  · rw [Cert.ReferenceIdeal.ReadP.val_main_v25_eq, Cert.ReferenceIdeal.RefValue.outH_eq, (hagree c).1, (hagree c).2.1,
      (hagree c).2.2.1, (hagree c).2.2.2.1, (hagree c).2.2.2.2]
  · rw [Cert.ReferenceIdeal.ReadP.val_main_v26_eq, Cert.ReferenceIdeal.RefValue.outA_eq, (hagree c).1, (hagree c).2.1,
      (hagree c).2.2.1, (hagree c).2.2.2.1]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
